-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v15)) (v5 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_v38) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x252x252x384 : Shape := ⟨4, ![4, 252, 252, 384]⟩
abbrev S4x384 : Shape := ⟨2, ![4, 384]⟩
abbrev S4 : Shape := ⟨1, ![4]⟩
abbrev S12x384 : Shape := ⟨2, ![12, 384]⟩
abbrev S12 : Shape := ⟨1, ![12]⟩
abbrev S16x384 : Shape := ⟨2, ![16, 384]⟩
abbrev S16 : Shape := ⟨1, ![16]⟩
abbrev S_ : Shape := ⟨0, ![]⟩

class Facts : Prop where
  bcast_S_S4x252x252x384 : S_.BroadcastsInDim S4x252x252x384 (![] : Fin 0 → Fin S4x252x252x384.rank)
  reducesTo_S4x252x252x384_S_d0_1_2_3 : S4x252x252x384.ReducesTo [0, 1, 2, 3] S_
  h_S_ : 0 < S_.numel
  bcast_S_S4x384 : S_.BroadcastsInDim S4x384 (![] : Fin 0 → Fin S4x384.rank)
  reducesTo_S4x384_S_d0_1 : S4x384.ReducesTo [0, 1] S_
  bcast_S_S4 : S_.BroadcastsInDim S4 (![] : Fin 0 → Fin S4.rank)
  reducesTo_S4_S_d0 : S4.ReducesTo [0] S_
  bcast_S_S12x384 : S_.BroadcastsInDim S12x384 (![] : Fin 0 → Fin S12x384.rank)
  reducesTo_S12x384_S_d0_1 : S12x384.ReducesTo [0, 1] S_
  bcast_S_S12 : S_.BroadcastsInDim S12 (![] : Fin 0 → Fin S12.rank)
  reducesTo_S12_S_d0 : S12.ReducesTo [0] S_
  bcast_S_S16x384 : S_.BroadcastsInDim S16x384 (![] : Fin 0 → Fin S16x384.rank)
  reducesTo_S16x384_S_d0_1 : S16x384.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg11 : FVec F S16x384 .f32) (main_arg12 : FVec F S16 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S16x384 .f32 := Host.absf main_arg11
  let main_cst_20 : FVec F S_ .f32 := constant S_ .f32 0x7F800000#32
  let main_v55 : FVec F S16x384 .f32 := broadcastInDim S16x384 ![] bcast_S_S16x384 main_cst_20
  let main_v56 : IVec S16x384 1 := cmpf .olt main_v54 main_v55
  let main_c_21 : IVec S_ 1 := constantI S_ 1 1#1
  let main_v57 : IVec S_ 1 := (fun x v => Host.reduce IntOp.andi x v reducesTo_S16x384_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg7 : FVec F S12x384 .f32) (main_arg8 : FVec F S12 .f32) (main_arg9 : FVec F S4x384 .f32) (main_arg10 : FVec F S4 .f32) (main_arg11 : FVec F S16x384 .f32) (main_arg12 : FVec F S16 .f32) (main_v33 : IVec S_ 1) : IVec S_ 1 :=
  let main_v34 : FVec F S12x384 .f32 := Host.absf main_arg7
  let main_cst_12 : FVec F S_ .f32 := constant S_ .f32 0x7F800000#32
  let main_v35 : FVec F S12x384 .f32 := broadcastInDim S12x384 ![] bcast_S_S12x384 main_cst_12
  let main_v36 : IVec S12x384 1 := cmpf .olt main_v34 main_v35
  let main_c_13 : IVec S_ 1 := constantI S_ 1 1#1
  let main_v37 : IVec S_ 1 := (fun x v => Host.reduce IntOp.andi x v reducesTo_S12x384_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  let main_v44 : FVec F S4x384 .f32 := Host.absf main_arg9
  let main_cst_16 : FVec F S_ .f32 := constant S_ .f32 0x7F800000#32
  let main_v45 : FVec F S4x384 .f32 := broadcastInDim S4x384 ![] bcast_S_S4x384 main_cst_16
  let main_v46 : IVec S4x384 1 := cmpf .olt main_v44 main_v45
  let main_c_17 : IVec S_ 1 := constantI S_ 1 1#1
  let main_v47 : IVec S_ 1 := (fun x v => Host.reduce IntOp.andi x v reducesTo_S4x384_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_v48 main_v49 main_v50

def fn_part1 {F : FTy → Type} [FloatOps F] (main_arg4 : FVec F S12 .f32) (main_arg5 : FVec F S4x384 .f32) (main_arg6 : FVec F S4 .f32) (main_arg7 : FVec F S12x384 .f32) (main_arg8 : FVec F S12 .f32) (main_arg9 : FVec F S4x384 .f32) (main_arg10 : FVec F S4 .f32) (main_arg11 : FVec F S16x384 .f32) (main_arg12 : FVec F S16 .f32) (main_v13 : IVec S_ 1) (main_v16 : IVec S12x384 1) : IVec S_ 1 :=
  let main_c_5 : IVec S_ 1 := constantI S_ 1 1#1
  let main_v17 : IVec S_ 1 := (fun x v => Host.reduce IntOp.andi x v reducesTo_S12x384_S_d0_1 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S4x384 .f32 := Host.absf main_arg5
  let main_cst_8 : FVec F S_ .f32 := constant S_ .f32 0x7F800000#32
  let main_v25 : FVec F S4x384 .f32 := broadcastInDim S4x384 ![] bcast_S_S4x384 main_cst_8
  let main_v26 : IVec S4x384 1 := cmpf .olt main_v24 main_v25
  let main_c_9 : IVec S_ 1 := constantI S_ 1 1#1
  let main_v27 : IVec S_ 1 := (fun x v => Host.reduce IntOp.andi x v reducesTo_S4x384_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x252x252x384 .f32) (main_arg1 : FVec F S4x384 .f32) (main_arg2 : FVec F S4 .f32) (main_arg3 : FVec F S12x384 .f32) (main_arg4 : FVec F S12 .f32) (main_arg5 : FVec F S4x384 .f32) (main_arg6 : FVec F S4 .f32) (main_arg7 : FVec F S12x384 .f32) (main_arg8 : FVec F S12 .f32) (main_arg9 : FVec F S4x384 .f32) (main_arg10 : FVec F S4 .f32) (main_arg11 : FVec F S16x384 .f32) (main_arg12 : FVec F S16 .f32) : IVec S_ 1 :=
  let main_v0 : FVec F S4x252x252x384 .f32 := Host.absf main_arg0
  let main_cst : FVec F S_ .f32 := constant S_ .f32 0x7F800000#32
  let main_v1 : FVec F S4x252x252x384 .f32 := broadcastInDim S4x252x252x384 ![] bcast_S_S4x252x252x384 main_cst
  let main_v2 : IVec S4x252x252x384 1 := cmpf .olt main_v0 main_v1
  let main_c : IVec S_ 1 := constantI S_ 1 1#1
  let main_v3 : IVec S_ 1 := (fun x v => Host.reduce IntOp.andi x v reducesTo_S4x252x252x384_S_d0_1_2_3 h_S_) main_v2 main_c
  let main_v4 : FVec F S4x384 .f32 := Host.absf main_arg1
  let main_cst_0 : FVec F S_ .f32 := constant S_ .f32 0x7F800000#32
  let main_v5 : FVec F S4x384 .f32 := broadcastInDim S4x384 ![] bcast_S_S4x384 main_cst_0
  let main_v6 : IVec S4x384 1 := cmpf .olt main_v4 main_v5
  let main_c_1 : IVec S_ 1 := constantI S_ 1 1#1
  let main_v7 : IVec S_ 1 := (fun x v => Host.reduce IntOp.andi x v reducesTo_S4x384_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S12x384 .f32 := Host.absf main_arg3
  let main_cst_4 : FVec F S_ .f32 := constant S_ .f32 0x7F800000#32
  let main_v15 : FVec F S12x384 .f32 := broadcastInDim S12x384 ![] bcast_S_S12x384 main_cst_4
  let main_v16 : IVec S12x384 1 := cmpf .olt main_v14 main_v15
  fn_part1 (F := F) main_arg4 main_arg5 main_arg6 main_arg7 main_arg8 main_arg9 main_arg10 main_arg11 main_arg12 main_v13 main_v16
-- ==== Kernel.lean ====
abbrev S4x252x252x384 : Shape := ⟨4, ![4, 252, 252, 384]⟩
abbrev S4x384 : Shape := ⟨2, ![4, 384]⟩
abbrev S4 : Shape := ⟨1, ![4]⟩
abbrev S12x384 : Shape := ⟨2, ![12, 384]⟩
abbrev S12 : Shape := ⟨1, ![12]⟩
abbrev S16x384 : Shape := ⟨2, ![16, 384]⟩
abbrev S16 : Shape := ⟨1, ![16]⟩
abbrev S52x384 : Shape := ⟨2, ![52, 384]⟩
abbrev S52 : Shape := ⟨1, ![52]⟩
abbrev S384x52 : Shape := ⟨2, ![384, 52]⟩
abbrev S1x52 : Shape := ⟨2, ![1, 52]⟩
abbrev S254016x384 : Shape := ⟨2, ![254016, 384]⟩
abbrev S254016x52 : Shape := ⟨2, ![254016, 52]⟩
abbrev S5184x384 : Shape := ⟨2, ![5184, 384]⟩
abbrev S5184x52 : Shape := ⟨2, ![5184, 52]⟩
abbrev S5184x4 : Shape := ⟨2, ![5184, 4]⟩
abbrev S5184x28 : Shape := ⟨2, ![5184, 28]⟩
abbrev S5184x16 : Shape := ⟨2, ![5184, 16]⟩
abbrev S254016x4 : Shape := ⟨2, ![254016, 4]⟩
abbrev S4x252x252x4 : Shape := ⟨4, ![4, 252, 252, 4]⟩
abbrev S254016x12 : Shape := ⟨2, ![254016, 12]⟩
abbrev S4x252x252x4x3 : Shape := ⟨5, ![4, 252, 252, 4, 3]⟩
abbrev S254016x16 : Shape := ⟨2, ![254016, 16]⟩
abbrev S4x252x252x4x4 : Shape := ⟨5, ![4, 252, 252, 4, 4]⟩

abbrev nBuf : Space → Nat
  | .hbm => 31
  | .vmem => 6
  | .smem => 0
  | _ => 0

abbrev bufTy : (tb : Table) → Fin (tcTables nBuf tb) → BufTy
  | .hbm, ⟨0, _⟩ => ⟨S4x252x252x384, .f32⟩
  | .hbm, ⟨1, _⟩ => ⟨S4x384, .f32⟩
  | .hbm, ⟨2, _⟩ => ⟨S4, .f32⟩
  | .hbm, ⟨3, _⟩ => ⟨S12x384, .f32⟩
  | .hbm, ⟨4, _⟩ => ⟨S12, .f32⟩
  | .hbm, ⟨5, _⟩ => ⟨S4x384, .f32⟩
  | .hbm, ⟨6, _⟩ => ⟨S4, .f32⟩
  | .hbm, ⟨7, _⟩ => ⟨S12x384, .f32⟩
  | .hbm, ⟨8, _⟩ => ⟨S12, .f32⟩
  | .hbm, ⟨9, _⟩ => ⟨S4x384, .f32⟩
  | .hbm, ⟨10, _⟩ => ⟨S4, .f32⟩
  | .hbm, ⟨11, _⟩ => ⟨S16x384, .f32⟩
  | .hbm, ⟨12, _⟩ => ⟨S16, .f32⟩
  | .hbm, ⟨13, _⟩ => ⟨S52x384, .f32⟩
  | .hbm, ⟨14, _⟩ => ⟨S52, .f32⟩
  | .hbm, ⟨15, _⟩ => ⟨S384x52, .f32⟩
  | .hbm, ⟨16, _⟩ => ⟨S1x52, .f32⟩
  | .hbm, ⟨17, _⟩ => ⟨S254016x384, .f32⟩
  | .hbm, ⟨18, _⟩ => ⟨S254016x52, .f32⟩
  | .hbm, ⟨19, _⟩ => ⟨S254016x4, .f32⟩
  | .hbm, ⟨20, _⟩ => ⟨S4x252x252x4, .f32⟩
  | .hbm, ⟨21, _⟩ => ⟨S254016x12, .f32⟩
  | .hbm, ⟨22, _⟩ => ⟨S4x252x252x4x3, .f32⟩
  | .hbm, ⟨23, _⟩ => ⟨S254016x4, .f32⟩
  | .hbm, ⟨24, _⟩ => ⟨S4x252x252x4, .f32⟩
  | .hbm, ⟨25, _⟩ => ⟨S254016x12, .f32⟩
  | .hbm, ⟨26, _⟩ => ⟨S4x252x252x4x3, .f32⟩
  | .hbm, ⟨27, _⟩ => ⟨S254016x4, .f32⟩
  | .hbm, ⟨28, _⟩ => ⟨S4x252x252x4, .f32⟩
  | .hbm, ⟨29, _⟩ => ⟨S254016x16, .f32⟩
  | .hbm, ⟨30, _⟩ => ⟨S4x252x252x4x4, .f32⟩
  | .local _ .vmem, ⟨0, _⟩ => ⟨S5184x384, .f32⟩
  | .local _ .vmem, ⟨1, _⟩ => ⟨S5184x384, .f32⟩
  | .local _ .vmem, ⟨2, _⟩ => ⟨S384x52, .f32⟩
  | .local _ .vmem, ⟨3, _⟩ => ⟨S1x52, .f32⟩
  | .local _ .vmem, ⟨4, _⟩ => ⟨S5184x52, .f32⟩
  | .local _ .vmem, ⟨5, _⟩ => ⟨S5184x52, .f32⟩
  | _, _ => ⟨S4x252x252x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5184x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x52 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x52 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5184x52 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S4x384_S12x384_S4x384_S12x384_S4x384_S16x384_S52x384_d0 : Shape.Concatenates [S4x384, S12x384, S4x384, S12x384, S4x384, S16x384] S52x384 0
  concatenates_S4_S12_S4_S12_S4_S16_S52_d0 : Shape.Concatenates [S4, S12, S4, S12, S4, S16] S52 0
  transposes_S52x384_S384x52_1_0 : S52x384.Transposes [1, 0] S384x52
  shapeCasts_S52_S1x52 : S52.ShapeCasts S1x52
  shapeCasts_S4x252x252x384_S254016x384 : S4x252x252x384.ShapeCasts S254016x384
  inb_S5184x384_S5184x384_0_0 : ∀ a, (![0, 0] : Fin 2 → Nat) a + S5184x384.size a ≤ S5184x384.size a
  h_S5184x384 : 0 < S5184x384.numel
  shapeCasts_S5184x384_S5184x384 : S5184x384.ShapeCasts S5184x384
  bitsLt_bf16_f32 : FTy.bits .bf16 < FTy.bits .f32
  inb_S384x52_S384x52_0_0 : ∀ a, (![0, 0] : Fin 2 → Nat) a + S384x52.size a ≤ S384x52.size a
  h_S384x52 : 0 < S384x52.numel
  shapeCasts_S384x52_S384x52 : S384x52.ShapeCasts S384x52
  inb_S1x52_S1x52_0_0 : ∀ a, (![0, 0] : Fin 2 → Nat) a + S1x52.size a ≤ S1x52.size a
  h_S1x52 : 0 < S1x52.numel
  shapeCasts_S1x52_S1x52 : S1x52.ShapeCasts S1x52
  broadcasts_S1x52_S5184x52 : S1x52.Broadcasts S5184x52
  slices_S5184x52_o0_0_S5184x4 : S5184x52.Slices ![0, 0] S5184x4
  slices_S5184x52_o0_4_S5184x28 : S5184x52.Slices ![0, 4] S5184x28
  slices_S5184x52_o0_32_S5184x4 : S5184x52.Slices ![0, 32] S5184x4
  slices_S5184x52_o0_36_S5184x16 : S5184x52.Slices ![0, 36] S5184x16
  concatenates_S5184x4_S5184x28_S5184x4_S5184x16_S5184x52_d1 : Shape.Concatenates [S5184x4, S5184x28, S5184x4, S5184x16] S5184x52 1
  inb_S5184x52_S5184x52_0_0 : ∀ a, (![0, 0] : Fin 2 → Nat) a + S5184x52.size a ≤ S5184x52.size a
  h_S5184x52 : 0 < S5184x52.numel
  slices_S254016x52_S254016x4_0_0 : S254016x52.Slices ![0, 0] S254016x4
  shapeCasts_S254016x4_S4x252x252x4 : S254016x4.ShapeCasts S4x252x252x4
  slices_S254016x52_S254016x12_0_4 : S254016x52.Slices ![0, 4] S254016x12
  shapeCasts_S254016x12_S4x252x252x4x3 : S254016x12.ShapeCasts S4x252x252x4x3
  slices_S254016x52_S254016x4_0_16 : S254016x52.Slices ![0, 16] S254016x4
  slices_S254016x52_S254016x12_0_20 : S254016x52.Slices ![0, 20] S254016x12
  slices_S254016x52_S254016x4_0_32 : S254016x52.Slices ![0, 32] S254016x4
  slices_S254016x52_S254016x16_0_36 : S254016x52.Slices ![0, 36] S254016x16
  shapeCasts_S254016x16_S4x252x252x4x4 : S254016x16.ShapeCasts S4x252x252x4x4
  dot_S5184x384_S384x52_S5184x52_1_0_0_1_n_n_wf : DotDims.WF S5184x384 S384x52 S5184x52 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5184x384.size a ≤ S254016x384.size a
  hwx0_0 : ∀ i : grid0.Coords, EltTy.bits .f32 = 32 ∨ (Rect.block (s := S254016x384) S5184x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x52.size a ≤ S384x52.size a
  hwx0_1 : ∀ i : grid0.Coords, EltTy.bits .f32 = 32 ∨ (Rect.block (s := S384x52) S384x52.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x52.size a ≤ S1x52.size a
  hwx0_2 : ∀ i : grid0.Coords, EltTy.bits .f32 = 32 ∨ (Rect.block (s := S1x52) S1x52.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5184x52.size a ≤ S254016x52.size a
  hwx0_3 : ∀ i : grid0.Coords, EltTy.bits .f32 = 32 ∨ (Rect.block (s := S254016x52) S5184x52.size (cc0_transform_3 i) (hinb0_3 i)).WholeWords (EltTy.packing .f32)

variable [Facts₀]

def dot_S5184x384_S384x52_S5184x52_1_0_0_1_n_n : DotDims S5184x384 S384x52 S5184x52 where
  lhsContracting := [1]
  rhsContracting := [0]
  lhsNonContracting := [0]
  rhsNonContracting := [1]
  lhsBatch := []
  rhsBatch := []
  wf := dot_S5184x384_S384x52_S5184x52_1_0_0_1_n_n_wf

abbrev win0_0 : Pipeline.Window sig grid0 :=
  Pipeline.Window.ofSpec (Memref.whole main_v4) S5184x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S384x52.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x52.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5184x52.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x252x252x384 : Shape := ⟨4, ![4, 252, 252, 384]⟩
abbrev S4x384 : Shape := ⟨2, ![4, 384]⟩
abbrev S4 : Shape := ⟨1, ![4]⟩
abbrev S12x384 : Shape := ⟨2, ![12, 384]⟩
abbrev S12 : Shape := ⟨1, ![12]⟩
abbrev S16x384 : Shape := ⟨2, ![16, 384]⟩
abbrev S16 : Shape := ⟨1, ![16]⟩
abbrev S4x252x252x4 : Shape := ⟨4, ![4, 252, 252, 4]⟩
abbrev S1x1x1x4 : Shape := ⟨4, ![1, 1, 1, 4]⟩
abbrev S_ : Shape := ⟨0, ![]⟩
abbrev S4x252x252x12 : Shape := ⟨4, ![4, 252, 252, 12]⟩
abbrev S1x1x1x12 : Shape := ⟨4, ![1, 1, 1, 12]⟩
abbrev S4x252x252x4x3 : Shape := ⟨5, ![4, 252, 252, 4, 3]⟩
abbrev S4x252x252x16 : Shape := ⟨4, ![4, 252, 252, 16]⟩
abbrev S1x1x1x16 : Shape := ⟨4, ![1, 1, 1, 16]⟩
abbrev S4x252x252x4x4 : Shape := ⟨5, ![4, 252, 252, 4, 4]⟩

abbrev nBuf : Space → Nat
  | .hbm => 56
  | .vmem => 0
  | .smem => 0
  | _ => 0

abbrev bufTy : (tb : Table) → Fin (tcTables nBuf tb) → BufTy
  | .hbm, ⟨0, _⟩ => ⟨S4x252x252x384, .f32⟩
  | .hbm, ⟨1, _⟩ => ⟨S4x384, .f32⟩
  | .hbm, ⟨2, _⟩ => ⟨S4, .f32⟩
  | .hbm, ⟨3, _⟩ => ⟨S12x384, .f32⟩
  | .hbm, ⟨4, _⟩ => ⟨S12, .f32⟩
  | .hbm, ⟨5, _⟩ => ⟨S4x384, .f32⟩
  | .hbm, ⟨6, _⟩ => ⟨S4, .f32⟩
  | .hbm, ⟨7, _⟩ => ⟨S12x384, .f32⟩
  | .hbm, ⟨8, _⟩ => ⟨S12, .f32⟩
  | .hbm, ⟨9, _⟩ => ⟨S4x384, .f32⟩
  | .hbm, ⟨10, _⟩ => ⟨S4, .f32⟩
  | .hbm, ⟨11, _⟩ => ⟨S16x384, .f32⟩
  | .hbm, ⟨12, _⟩ => ⟨S16, .f32⟩
  | .hbm, ⟨13, _⟩ => ⟨S4x252x252x4, .f32⟩
  | .hbm, ⟨14, _⟩ => ⟨S1x1x1x4, .f32⟩
  | .hbm, ⟨15, _⟩ => ⟨S4x252x252x4, .f32⟩
  | .hbm, ⟨16, _⟩ => ⟨S4x252x252x4, .f32⟩
  | .hbm, ⟨17, _⟩ => ⟨S4x252x252x4, .f32⟩
  | .hbm, ⟨18, _⟩ => ⟨S4x252x252x4, .f32⟩
  | .hbm, ⟨19, _⟩ => ⟨S_, .f32⟩
  | .hbm, ⟨20, _⟩ => ⟨S4x252x252x4, .f32⟩
  | .hbm, ⟨21, _⟩ => ⟨S4x252x252x4, .f32⟩
  | .hbm, ⟨22, _⟩ => ⟨S_, .f32⟩
  | .hbm, ⟨23, _⟩ => ⟨S4x252x252x4, .f32⟩
  | .hbm, ⟨24, _⟩ => ⟨S4x252x252x4, .f32⟩
  | .hbm, ⟨25, _⟩ => ⟨S4x252x252x12, .f32⟩
  | .hbm, ⟨26, _⟩ => ⟨S1x1x1x12, .f32⟩
  | .hbm, ⟨27, _⟩ => ⟨S4x252x252x12, .f32⟩
  | .hbm, ⟨28, _⟩ => ⟨S4x252x252x12, .f32⟩
  | .hbm, ⟨29, _⟩ => ⟨S4x252x252x4x3, .f32⟩
  | .hbm, ⟨30, _⟩ => ⟨S4x252x252x4, .f32⟩
  | .hbm, ⟨31, _⟩ => ⟨S1x1x1x4, .f32⟩
  | .hbm, ⟨32, _⟩ => ⟨S4x252x252x4, .f32⟩
  | .hbm, ⟨33, _⟩ => ⟨S4x252x252x4, .f32⟩
  | .hbm, ⟨34, _⟩ => ⟨S4x252x252x12, .f32⟩
  | .hbm, ⟨35, _⟩ => ⟨S1x1x1x12, .f32⟩
  | .hbm, ⟨36, _⟩ => ⟨S4x252x252x12, .f32⟩
  | .hbm, ⟨37, _⟩ => ⟨S4x252x252x12, .f32⟩
  | .hbm, ⟨38, _⟩ => ⟨S4x252x252x4x3, .f32⟩
  | .hbm, ⟨39, _⟩ => ⟨S4x252x252x4, .f32⟩
  | .hbm, ⟨40, _⟩ => ⟨S1x1x1x4, .f32⟩
  | .hbm, ⟨41, _⟩ => ⟨S4x252x252x4, .f32⟩
  | .hbm, ⟨42, _⟩ => ⟨S4x252x252x4, .f32⟩
  | .hbm, ⟨43, _⟩ => ⟨S4x252x252x4, .f32⟩
  | .hbm, ⟨44, _⟩ => ⟨S4x252x252x4, .f32⟩
  | .hbm, ⟨45, _⟩ => ⟨S_, .f32⟩
  | .hbm, ⟨46, _⟩ => ⟨S4x252x252x4, .f32⟩
  | .hbm, ⟨47, _⟩ => ⟨S4x252x252x4, .f32⟩
  | .hbm, ⟨48, _⟩ => ⟨S_, .f32⟩
  | .hbm, ⟨49, _⟩ => ⟨S4x252x252x4, .f32⟩
  | .hbm, ⟨50, _⟩ => ⟨S4x252x252x4, .f32⟩
  | .hbm, ⟨51, _⟩ => ⟨S4x252x252x16, .f32⟩
  | .hbm, ⟨52, _⟩ => ⟨S1x1x1x16, .f32⟩
  | .hbm, ⟨53, _⟩ => ⟨S4x252x252x16, .f32⟩
  | .hbm, ⟨54, _⟩ => ⟨S4x252x252x16, .f32⟩
  | .hbm, ⟨55, _⟩ => ⟨S4x252x252x4x4, .f32⟩
  | _, _ => ⟨S4x252x252x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S4_S1x1x1x4_3 : S4.BroadcastsInDim S1x1x1x4 (![3] : Fin 1 → Fin S1x1x1x4.rank)
  bcast_S1x1x1x4_S4x252x252x4_0_1_2_3 : S1x1x1x4.BroadcastsInDim S4x252x252x4 (![0, 1, 2, 3] : Fin 4 → Fin S4x252x252x4.rank)
  bcast_S_S4x252x252x4 : S_.BroadcastsInDim S4x252x252x4 (![] : Fin 0 → Fin S4x252x252x4.rank)
  bcast_S12_S1x1x1x12_3 : S12.BroadcastsInDim S1x1x1x12 (![3] : Fin 1 → Fin S1x1x1x12.rank)
  bcast_S1x1x1x12_S4x252x252x12_0_1_2_3 : S1x1x1x12.BroadcastsInDim S4x252x252x12 (![0, 1, 2, 3] : Fin 4 → Fin S4x252x252x12.rank)
  shapeCasts_S4x252x252x12_S4x252x252x4x3 : S4x252x252x12.ShapeCasts S4x252x252x4x3
  bcast_S16_S1x1x1x16_3 : S16.BroadcastsInDim S1x1x1x16 (![3] : Fin 1 → Fin S1x1x1x16.rank)
  bcast_S1x1x1x16_S4x252x252x16_0_1_2_3 : S1x1x1x16.BroadcastsInDim S4x252x252x16 (![0, 1, 2, 3] : Fin 4 → Fin S4x252x252x16.rank)
  shapeCasts_S4x252x252x16_S4x252x252x4x4 : S4x252x252x16.ShapeCasts S4x252x252x4x4
  dot_S4x252x252x384_S4x384_S4x252x252x4_3_1_012_0_n_n_wf : DotDims.WF S4x252x252x384 S4x384 S4x252x252x4 [3] [1] [0, 1, 2] [0] [] []
  dot_S4x252x252x384_S12x384_S4x252x252x12_3_1_012_0_n_n_wf : DotDims.WF S4x252x252x384 S12x384 S4x252x252x12 [3] [1] [0, 1, 2] [0] [] []
  dot_S4x252x252x384_S16x384_S4x252x252x16_3_1_012_0_n_n_wf : DotDims.WF S4x252x252x384 S16x384 S4x252x252x16 [3] [1] [0, 1, 2] [0] [] []

variable [Facts₀]

def dot_S4x252x252x384_S4x384_S4x252x252x4_3_1_012_0_n_n : DotDims S4x252x252x384 S4x384 S4x252x252x4 where
  lhsContracting := [3]
  rhsContracting := [1]
  lhsNonContracting := [0, 1, 2]
  rhsNonContracting := [0]
  lhsBatch := []
  rhsBatch := []
  wf := dot_S4x252x252x384_S4x384_S4x252x252x4_3_1_012_0_n_n_wf
def dot_S4x252x252x384_S12x384_S4x252x252x12_3_1_012_0_n_n : DotDims S4x252x252x384 S12x384 S4x252x252x12 where
  lhsContracting := [3]
  rhsContracting := [1]
  lhsNonContracting := [0, 1, 2]
  rhsNonContracting := [0]
  lhsBatch := []
  rhsBatch := []
  wf := dot_S4x252x252x384_S12x384_S4x252x252x12_3_1_012_0_n_n_wf
def dot_S4x252x252x384_S16x384_S4x252x252x16_3_1_012_0_n_n : DotDims S4x252x252x384 S16x384 S4x252x252x16 where
  lhsContracting := [3]
  rhsContracting := [1]
  lhsNonContracting := [0, 1, 2]
  rhsNonContracting := [0]
  lhsBatch := []
  rhsBatch := []
  wf := dot_S4x252x252x384_S16x384_S4x252x252x16_3_1_012_0_n_n_wf

class Facts : Prop extends Facts₀ where

variable [Facts]
-- ==== Proof.BitsRegion.lean ====
/-
  The frame of `Cert.Kernel`'s @main, for any float instance `F`: five host lines (two concatenations, a transpose and two
  reshapes) build the kernel's three operand arrays, one pallas_call runs the head kernel over a grid of 49 row tiles,
  and twelve host lines slice and reshape its result into the six outputs.

  The kernel's body at a grid point loads its three input blocks whole (a tile of 5184 pixels by 384 channels, the
  384 by 52 weight matrix, the 1 by 52 bias row), loads and ignores the output block, and overwrites the output
  block whole with ONE value computed from the three loads.  So after the body the output block holds that value of
  the input blocks at the point, whatever it held before, and the input blocks are as they were.  Every window's
  blocks tile its array, the weight and bias windows sit at block (0, 0) at every point, and the tile windows move
  one tile per point: nothing is cut, nothing is idle, and the pipeline writes every output tile back.

  The run: the host lines before the region leave every unscoped buffer at the lines' composed contents `V`; the
  region runs from there with each staged array at `V`; the host lines after it write only their own result
  buffers.  None of the eighteen lines writes an argument of @main, and no window stages one, so every argument ends
  as it was launched.
-/
import proofs.«401457_j52802327937436_3_alg».proof.Proof.Gen.Kernel.Launch
import proofs.«401457_j52802327937436_3_alg».proof.Proof.Gen.Kernel.Skeleton
import proofs.«401457_j52802327937436_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: the five host lines before it, composed, from the
    launch contents. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the lines after it: holding the unscoped buffers at the
    launch contents it reduces to the region, continued by the later lines, holding them at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the pipeline's arrays and the unscoped buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes its own result buffer only, and none of those is an array the pipeline stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.unary_writes, StableHlo.reshape_writes, Finset.mem_singleton] <;> exact StableHlo.devRef_ne_of_ne (by decide)

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 5, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 6, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 7, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 8, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 9, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 10, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 11, and no window stages it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 12, and no window stages it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not (unfetched, its block index has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, its block index has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, its block index has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- For any proof data over `V`: a run ending with every staged array at what the pipeline wrote back and every other
    unscoped buffer as the later lines leave it ends with the thirteen arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c)⟩) h

/-! ## What the body leaves in the output block -/

/-- The whole output block, as a rectangle. -/
abbrev rOut : Rect S5184x52 := Rect.unit (s := S5184x52) ![0, 0] S5184x52.size Facts₀.inb_S5184x52_S5184x52_0_0
abbrev rX : Rect S5184x384 := Rect.unit (s := S5184x384) ![0, 0] S5184x384.size Facts₀.inb_S5184x384_S5184x384_0_0
abbrev rW : Rect S384x52 := Rect.unit (s := S384x52) ![0, 0] S384x52.size Facts₀.inb_S384x52_S384x52_0_0
abbrev rB : Rect S1x52 := Rect.unit (s := S1x52) ![0, 0] S1x52.size Facts₀.inb_S1x52_S1x52_0_0

/-- The output block after the body: its one store, of the value computed from the three input blocks read whole. -/
def outBlock (x0 : Vec F S5184x384 .f32) (x1 : Vec F S384x52 .f32) (x2 : Vec F S1x52 .f32) : Vec F S5184x52 .f32 :=
  View.canon [⟨rOut, k0_pay1 (View.ld x0 rX) (View.ld x1 rW) (View.ld x2 rB)⟩]

/-- The one store covers the block. -/
theorem outCover (p0 : Vec F S5184x52 .f32) (y : S5184x52.Idx) :
    ∃ pc ∈ ([⟨rOut, p0⟩] : List (View.Piece (Elt F) S5184x52 .f32)), y ∈ pc.1.set :=
  View.cover_of_tiled [⟨rOut, p0⟩] S5184x52.size (by rfl) y

/-! ## The body's triple -/

set_option maxHeartbeats 1000000 in
/-- The body on whole staging memrefs — the three inputs' at contents `x0`, `x1`, `x2`, the output's at anything — runs to
    its end holding the inputs' as they were and the output's at `outBlock x0 x1 x2`. -/
theorem sound_kernel (c : Dev nD) (E : Set ℕ) (i : grid0.Coords)
    (arg1 : Memref sig .tc .vmem S5184x384 .f32) (harg1 : arg1.IsWhole) (arg2 : Memref sig .tc .vmem S384x52 .f32) (harg2 : arg2.IsWhole)
    (arg3 : Memref sig .tc .vmem S1x52 .f32) (harg3 : arg3.IsWhole) (arg4 : Memref sig .tc .vmem S5184x52 .f32) (harg4 : arg4.IsWhole)
    (x0 : Vec F S5184x384 .f32) (x1 : Vec F S384x52 .f32) (x2 : Vec F S1x52 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0_head_kernel i arg1 harg1 arg2 harg2 arg3 harg3 arg4 harg4) K := by
  simp only [cc0_head_kernel_eq_skeleton]; unfold cc0_head_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- On core `c`: the arrays as the region finds them; after the body at point `t` each input's buffer still at its block
    and the output's at `outBlock` of the three input blocks; the invariant is the scoped rest and the generator register,
    which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, faulting nowhere, with every staged array at what the pipeline
    wrote back and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame of @main: it runs to the end and its thirteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Region

end
-- ==== Proof.IdealRegion.lean ====
/-
  The frame of `Cert.KernelIdeal`'s @main, for any float instance `F`: five host lines (two concatenations, a transpose and two
  reshapes) build the kernel's three operand arrays, one pallas_call runs the head kernel over a grid of 49 row tiles,
  and twelve host lines slice and reshape its result into the six outputs.

  The kernel's body at a grid point loads its three input blocks whole (a tile of 5184 pixels by 384 channels, the
  384 by 52 weight matrix, the 1 by 52 bias row), loads and ignores the output block, and overwrites the output
  block whole with ONE value computed from the three loads.  So after the body the output block holds that value of
  the input blocks at the point, whatever it held before, and the input blocks are as they were.  Every window's
  blocks tile its array, the weight and bias windows sit at block (0, 0) at every point, and the tile windows move
  one tile per point: nothing is cut, nothing is idle, and the pipeline writes every output tile back.

  The run: the host lines before the region leave every unscoped buffer at the lines' composed contents `V`; the
  region runs from there with each staged array at `V`; the host lines after it write only their own result
  buffers.  None of the eighteen lines writes an argument of @main, and no window stages one, so every argument ends
  as it was launched.
-/
import proofs.«401457_j52802327937436_3_alg».proof.Proof.Gen.KernelIdeal.Launch
import proofs.«401457_j52802327937436_3_alg».proof.Proof.Gen.KernelIdeal.Skeleton
import proofs.«401457_j52802327937436_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of core `c`'s buffers when the region is entered: the five host lines before it, composed, from the
    launch contents. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the lines after it: holding the unscoped buffers at the
    launch contents it reduces to the region, continued by the later lines, holding them at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the pipeline's arrays and the unscoped buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes its own result buffer only, and none of those is an array the pipeline stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.unary_writes, StableHlo.reshape_writes, Finset.mem_singleton] <;> exact StableHlo.devRef_ne_of_ne (by decide)

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 5, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 6, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 7, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 8, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 9, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 10, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 11, and no window stages it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.reshape_writes, Finset.mem_singleton]
    repeat' apply And.intro
    all_goals exact StableHlo.devRef_ne_of_ne (by decide)))

/-- No line after the region writes argument 12, and no window stages it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not (unfetched, its block index has not moved), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, its block index has not moved), for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, its block index has not moved), for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- For any proof data over `V`: a run ending with every staged array at what the pipeline wrote back and every other
    unscoped buffer as the later lines leave it ends with the thirteen arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c)⟩) h

/-! ## What the body leaves in the output block -/

/-- The whole output block, as a rectangle. -/
abbrev rOut : Rect S5184x52 := Rect.unit (s := S5184x52) ![0, 0] S5184x52.size Facts₀.inb_S5184x52_S5184x52_0_0
abbrev rX : Rect S5184x384 := Rect.unit (s := S5184x384) ![0, 0] S5184x384.size Facts₀.inb_S5184x384_S5184x384_0_0
abbrev rW : Rect S384x52 := Rect.unit (s := S384x52) ![0, 0] S384x52.size Facts₀.inb_S384x52_S384x52_0_0
abbrev rB : Rect S1x52 := Rect.unit (s := S1x52) ![0, 0] S1x52.size Facts₀.inb_S1x52_S1x52_0_0

/-- The output block after the body: its one store, of the value computed from the three input blocks read whole. -/
def outBlock (x0 : Vec F S5184x384 .f32) (x1 : Vec F S384x52 .f32) (x2 : Vec F S1x52 .f32) : Vec F S5184x52 .f32 :=
  View.canon [⟨rOut, k0_pay1 (View.ld x0 rX) (View.ld x1 rW) (View.ld x2 rB)⟩]

/-- The one store covers the block. -/
theorem outCover (p0 : Vec F S5184x52 .f32) (y : S5184x52.Idx) :
    ∃ pc ∈ ([⟨rOut, p0⟩] : List (View.Piece (Elt F) S5184x52 .f32)), y ∈ pc.1.set :=
  View.cover_of_tiled [⟨rOut, p0⟩] S5184x52.size (by rfl) y

/-! ## The body's triple -/

set_option maxHeartbeats 1000000 in
/-- The body on whole staging memrefs — the three inputs' at contents `x0`, `x1`, `x2`, the output's at anything — runs to
    its end holding the inputs' as they were and the output's at `outBlock x0 x1 x2`. -/
theorem sound_kernel (c : Dev nD) (E : Set ℕ) (i : grid0.Coords)
    (arg1 : Memref sig .tc .vmem S5184x384 .f32) (harg1 : arg1.IsWhole) (arg2 : Memref sig .tc .vmem S384x52 .f32) (harg2 : arg2.IsWhole)
    (arg3 : Memref sig .tc .vmem S1x52 .f32) (harg3 : arg3.IsWhole) (arg4 : Memref sig .tc .vmem S5184x52 .f32) (harg4 : arg4.IsWhole)
    (x0 : Vec F S5184x384 .f32) (x1 : Vec F S384x52 .f32) (x2 : Vec F S1x52 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0_head_kernel i arg1 harg1 arg2 harg2 arg3 harg3 arg4 harg4) K := by
  simp only [cc0_head_kernel_eq_skeleton]; unfold cc0_head_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- On core `c`: the arrays as the region finds them; after the body at point `t` each input's buffer still at its block
    and the output's at `outBlock` of the three input blocks; the invariant is the scoped rest and the generator register,
    which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, faulting nowhere, with every staged array at what the pipeline
    wrote back and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame of @main: it runs to the end and its thirteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Region

end
-- ==== Proof.Heads.lean ====
/-
  The mathematics both programs compute, stated once, over the extended reals.

  A detection head is a 1x1 convolution: at a pixel (b, h, v) of the 4 x 252 x 252 feature map and an output channel o
  its logit is the pixel's 384 features against the channel's weight row, plus the channel's bias,

      logit x w bias b h v o = (∑ k, x[b, h, v, k] * w[o, k]) + bias[o].

  Six heads (4, 12, 4, 12, 4 and 16 channels) share the feature map; the first and the fifth pass their logits through
  the logistic function. The kernel runs them as ONE head of 52 channels — the six weight matrices stacked, the pixels
  flattened to 254016 rows — whose channels 0..3 and 32..35 are the ones that take the logistic function (`act`).
-/
import Idealize.ShloMosaic.PureOps.Ideal
import Idealize.ShloMosaic.Lib.ValueIdx

noncomputable section

namespace Cert.Heads

open Idealize.ShloMosaic Idealize.ShloMosaic.ValueIdx

/-- One head's logit at pixel `(b, h, v)` and channel `o`. -/
def logit {O : Nat} (x : FVec Ideal ⟨4, ![4, 252, 252, 384]⟩ .f32) (w : FVec Ideal ⟨2, ![O, 384]⟩ .f32)
    (bias : FVec Ideal ⟨1, ![O]⟩ .f32) (b : Fin 4) (h v : Fin 252) (o : Fin O) : EReal :=
  (∑ k : Fin 384, x (ix4 b h v k) * w (ix2 o k)) + bias (ix1 o)

/-- The row of pixel `(b, h, v)` when the feature map is flattened to 254016 rows, row-major. -/
def pix (b : Fin 4) (h v : Fin 252) : Fin 254016 :=
  ⟨(b.val * 252 + h.val) * 252 + v.val, by have := b.isLt; have := h.isLt; have := v.isLt; omega⟩

theorem pix_val (b : Fin 4) (h v : Fin 252) : (pix b h v).val = (b.val * 252 + h.val) * 252 + v.val := rfl

/-- What the stacked head does to channel `q`'s logit: the logistic function on the first head's channels (0..3)
    and the fifth's (32..35), nothing on the others. -/
def act (q : Fin 52) (z : EReal) : EReal :=
  if q.val < 4 ∨ (32 ≤ q.val ∧ q.val < 36) then Ideal.logistic z else z

theorem act_sigmoid {q : Fin 52} (hq : q.val < 4 ∨ (32 ≤ q.val ∧ q.val < 36)) (z : EReal) : act q z = Ideal.logistic z :=
  if_pos hq

theorem act_plain {q : Fin 52} (hq : ¬(q.val < 4 ∨ (32 ≤ q.val ∧ q.val < 36))) (z : EReal) : act q z = z :=
  if_neg hq

/-- The stacked head over flattened pixels: row `r`, channel `q`, from the flattened feature map `X`, the stacked and
    transposed weights `Wt` (384 x 52) and the stacked bias row `Bb` (1 x 52). -/
def stacked (X : FVec Ideal ⟨2, ![254016, 384]⟩ .f32) (Wt : FVec Ideal ⟨2, ![384, 52]⟩ .f32) (Bb : FVec Ideal ⟨2, ![1, 52]⟩ .f32) :
    FVec Ideal ⟨2, ![254016, 52]⟩ .f32 :=
  fun j => act (j 1) ((∑ k : Fin 384, X (ix2 (j 0) k) * Wt (ix2 k (j 1))) + Bb (ix2 (0 : Fin 1) (j 1)))

end Cert.Heads

end
-- ==== Proof.BodyValue.lean ====
/-
  The value the kernel's body stores, read at one entry, over the extended reals.

  From a tile `v0` of 5184 pixels by 384 features, the 384 x 52 stacked weights `v3` and the 1 x 52 bias row `v7` the
  body forms the logits `L[p, q] = (∑ k, v0[p, k] * v3[k, q]) + v7[0, q]` — a change of float format is the identity
  here, the matrix unit's product into a zero accumulator is the plain sum over the 384 features, and the bias row is
  repeated down the rows —, cuts `L` into the column ranges [0, 4), [4, 32), [32, 36), [36, 52), applies the logistic
  function to the first and the third, and glues the four back side by side. So entry `(p, q)` of what it stores is
  `L[p, q]`, through the logistic function exactly when `q` lies in [0, 4) or [32, 36): `act q (L[p, q])`.
-/
import proofs.«401457_j52802327937436_3_alg».proof.Proof.Heads
import proofs.«401457_j52802327937436_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Idealize.ShloMosaic Idealize.ShloMosaic.ValueIdx Cert.Heads
open Cert.KernelIdeal Cert.KernelIdeal.Gen

/-! ## The matrix product at an entry -/

theorem lhs_row (i : S5184x52.Idx) (c : dot_S5184x384_S384x52_S5184x52_1_0_0_1_n_n.contr.Idx) :
    (dot_S5184x384_S384x52_S5184x52_1_0_0_1_n_n.lhsIdx i c 0).val = (i 0).val := by
  unfold DotDims.lhsIdx
  rw [dif_neg (show ¬(0 : Fin S5184x384.rank) ∈ dot_S5184x384_S384x52_S5184x52_1_0_0_1_n_n.lhsBatch by decide), dif_pos (show (0 : Fin S5184x384.rank) ∈ dot_S5184x384_S384x52_S5184x52_1_0_0_1_n_n.lhsNonContracting by decide)]
  rfl
theorem lhs_col (i : S5184x52.Idx) (c : dot_S5184x384_S384x52_S5184x52_1_0_0_1_n_n.contr.Idx) :
    (dot_S5184x384_S384x52_S5184x52_1_0_0_1_n_n.lhsIdx i c 1).val = (c ⟨0, by decide⟩).val :=
  dot_S5184x384_S384x52_S5184x52_1_0_0_1_n_n.lhsIdx_val_of_single rfl i c
theorem rhs_row (i : S5184x52.Idx) (c : dot_S5184x384_S384x52_S5184x52_1_0_0_1_n_n.contr.Idx) :
    (dot_S5184x384_S384x52_S5184x52_1_0_0_1_n_n.rhsIdx i c 0).val = (c ⟨0, by decide⟩).val :=
  dot_S5184x384_S384x52_S5184x52_1_0_0_1_n_n.rhsIdx_val_of_single rfl i c
theorem rhs_col (i : S5184x52.Idx) (c : dot_S5184x384_S384x52_S5184x52_1_0_0_1_n_n.contr.Idx) :
    (dot_S5184x384_S384x52_S5184x52_1_0_0_1_n_n.rhsIdx i c 1).val = (i 1).val := by
  unfold DotDims.rhsIdx
  rw [dif_neg (show ¬(1 : Fin S384x52.rank) ∈ dot_S5184x384_S384x52_S5184x52_1_0_0_1_n_n.rhsBatch by decide), dif_pos (show (1 : Fin S384x52.rank) ∈ dot_S5184x384_S384x52_S5184x52_1_0_0_1_n_n.rhsNonContracting by decide)]
  rfl

/-- The product of a 5184 x 384 by a 384 x 52 matrix into a zero accumulator, at entry `(p, q)`: the sum over the 384
    features of row `p` of the left against column `q` of the right. -/
theorem product_at {φ₁ φ₂ : FTy} (l : FVec Ideal S5184x384 φ₁) (r : FVec Ideal S384x52 φ₂) (p : Fin 5184) (q : Fin 52) :
    matmul dot_S5184x384_S384x52_S5184x52_1_0_0_1_n_n none l r (constant (F := Ideal) S5184x52 .f32 0x00000000#32) (ix2 p q)
      = ∑ k : Fin 384, l (ix2 p k) * r (ix2 k q) := by
  simp only [matmul]
  rw [Ideal.matmul_constant_zero_apply, ← Equiv.sum_comp (contrEquiv1 dot_S5184x384_S384x52_S5184x52_1_0_0_1_n_n 384 rfl rfl).symm]
  refine Finset.sum_congr rfl fun k _ => ?_
  have hk := contrEquiv1_symm_val dot_S5184x384_S384x52_S5184x52_1_0_0_1_n_n 384 rfl rfl k
  have el : dot_S5184x384_S384x52_S5184x52_1_0_0_1_n_n.lhsIdx (ix2 p q) ((contrEquiv1 dot_S5184x384_S384x52_S5184x52_1_0_0_1_n_n 384 rfl rfl).symm k) = ix2 p k := funext fun a => Fin.ext (by
    match a with
    | ⟨0, _⟩ => exact lhs_row _ _
    | ⟨1, _⟩ => exact (lhs_col _ _).trans hk)
  have er : dot_S5184x384_S384x52_S5184x52_1_0_0_1_n_n.rhsIdx (ix2 p q) ((contrEquiv1 dot_S5184x384_S384x52_S5184x52_1_0_0_1_n_n 384 rfl rfl).symm k) = ix2 k q := funext fun a => Fin.ext (by
    match a with
    | ⟨0, _⟩ => exact (rhs_row _ _).trans hk
    | ⟨1, _⟩ => exact rhs_col _ _)
  rw [el, er]

/-! ## The logits -/

/-- The logits of a tile: the product, plus the bias row repeated down the rows. -/
def logits (v0 : Vec Ideal S5184x384 .f32) (v3 : Vec Ideal S384x52 .f32) (v7 : Vec Ideal S1x52 .f32) : FVec Ideal S5184x52 .f32 :=
  addf (matmul dot_S5184x384_S384x52_S5184x52_1_0_0_1_n_n none
      (truncf .bf16 (shapeCast S5184x384 v0 Facts₀.shapeCasts_S5184x384_S5184x384) Facts₀.bitsLt_bf16_f32)
      (truncf .bf16 (shapeCast S384x52 v3 Facts₀.shapeCasts_S384x52_S384x52) Facts₀.bitsLt_bf16_f32)
      (constant (F := Ideal) S5184x52 .f32 0x00000000#32))
    (broadcastTo S5184x52 (shapeCast S1x52 v7 Facts₀.shapeCasts_S1x52_S1x52) Facts₀.broadcasts_S1x52_S5184x52)

theorem logits_at (v0 : Vec Ideal S5184x384 .f32) (v3 : Vec Ideal S384x52 .f32) (v7 : Vec Ideal S1x52 .f32) (p : Fin 5184) (q : Fin 52) :
    logits v0 v3 v7 (ix2 p q) = (∑ k : Fin 384, v0 (ix2 p k) * v3 (ix2 k q)) + v7 (ix2 (0 : Fin 1) q) := by
  unfold logits
  rw [addf_apply, product_at, broadcastTo_1b_ab_apply, shapeCast_self, shapeCast_self, shapeCast_self]
  rfl

/-! ## A column range of the logits, and the four ranges glued back -/

/-- Columns `[off, off + w)` of a 5184 x 52 array at `(p, j)`: the array at `(p, off + j)`. -/
theorem columns_at {w : Nat} (off : Nat) (L : FVec Ideal S5184x52 .f32) (h : S5184x52.Slices ![0, off] ⟨2, ![5184, w]⟩)
    (p : Fin 5184) (j : Fin w) (q : Fin 52) (hq : q.val = off + j.val) :
    extractStridedSlice ⟨2, ![5184, w]⟩ ![0, off] L h (ix2 p j) = L (ix2 p q) :=
  extractStridedSlice_apply _ L h _ _ fun a => match a with
    | ⟨0, _⟩ => (Nat.zero_add _).symm
    | ⟨1, _⟩ => hq

/-- Entry `(p, q)` of what the body stores. -/
theorem pay_at (v0 : Vec Ideal S5184x384 .f32) (v3 : Vec Ideal S384x52 .f32) (v7 : Vec Ideal S1x52 .f32) (p : Fin 5184) (q : Fin 52) :
    k0_pay1 (F := Ideal) v0 v3 v7 (ix2 p q) = act q ((∑ k : Fin 384, v0 (ix2 p k) * v3 (ix2 k q)) + v7 (ix2 (0 : Fin 1) q)) := by
  rw [← logits_at]
  unfold k0_pay1
  show concatenate S5184x52 1 [⟨S5184x4, logistic (extractStridedSlice S5184x4 ![0, 0] (logits v0 v3 v7) _)⟩,
      ⟨S5184x28, extractStridedSlice S5184x28 ![0, 4] (logits v0 v3 v7) _⟩,
      ⟨S5184x4, logistic (extractStridedSlice S5184x4 ![0, 32] (logits v0 v3 v7) _)⟩,
      ⟨S5184x16, extractStridedSlice S5184x16 ![0, 36] (logits v0 v3 v7) _⟩] _ (ix2 p q) = _
  have hq52 := q.isLt
  by_cases h0 : q.val < 4
  · rw [act_sigmoid (Or.inl h0)]
    refine (concatenate_apply_piece (1 : Fin 2) _ _ (ix2 p q) 0 (by show (0 : Nat) < 4; omega) S5184x4 _ rfl rfl 0 rfl (ix2 p (⟨q.val, h0⟩ : Fin 4))
      (fun b hb => match b with | ⟨0, _⟩ => rfl | ⟨1, _⟩ => absurd rfl hb) (Nat.zero_add _)).trans ?_
    exact congrArg Ideal.logistic (columns_at 0 _ _ p ⟨q.val, h0⟩ q (Nat.zero_add _).symm)
  by_cases h1 : q.val < 32
  · rw [act_plain (by omega)]
    refine (concatenate_apply_piece (1 : Fin 2) _ _ (ix2 p q) 1 (by show (1 : Nat) < 4; omega) S5184x28 _ rfl rfl 4 rfl (ix2 p (⟨q.val - 4, by omega⟩ : Fin 28))
      (fun b hb => match b with | ⟨0, _⟩ => rfl | ⟨1, _⟩ => absurd rfl hb) (by show 4 + (q.val - 4) = q.val; omega)).trans ?_
    exact columns_at 4 _ _ p ⟨q.val - 4, by omega⟩ q (by show q.val = 4 + (q.val - 4); omega)
  by_cases h2 : q.val < 36
  · rw [act_sigmoid (Or.inr ⟨by omega, h2⟩)]
    refine (concatenate_apply_piece (1 : Fin 2) _ _ (ix2 p q) 2 (by show (2 : Nat) < 4; omega) S5184x4 _ rfl rfl 32 rfl (ix2 p (⟨q.val - 32, by omega⟩ : Fin 4))
      (fun b hb => match b with | ⟨0, _⟩ => rfl | ⟨1, _⟩ => absurd rfl hb) (by show 32 + (q.val - 32) = q.val; omega)).trans ?_
    exact congrArg Ideal.logistic (columns_at 32 _ _ p ⟨q.val - 32, by omega⟩ q (by show q.val = 32 + (q.val - 32); omega))
  · rw [act_plain (by omega)]
    refine (concatenate_apply_piece (1 : Fin 2) _ _ (ix2 p q) 3 (by show (3 : Nat) < 4; omega) S5184x16 _ rfl rfl 36 rfl (ix2 p (⟨q.val - 36, by omega⟩ : Fin 16))
      (fun b hb => match b with | ⟨0, _⟩ => rfl | ⟨1, _⟩ => absurd rfl hb) (by show 36 + (q.val - 36) = q.val; omega)).trans ?_
    exact columns_at 36 _ _ p ⟨q.val - 36, by omega⟩ q (by show q.val = 36 + (q.val - 36); omega)

end Cert.KernelIdeal.BodyValue

end
-- ==== Proof.StackedValue.lean ====
/-
  The kernel's result array after the run, as ONE function of its three operand arrays.

  The grid has 49 points. At point `t` the pipeline hands the body tile `t` of the flattened feature map (rows
  `5184 t` to `5184 t + 5183`, all 384 columns), the whole 384 x 52 weight matrix and the whole 1 x 52 bias row, and
  writes the body's 5184 x 52 block back to rows `5184 t ..` of the 254016 x 52 result. Entry `(p, q)` of the block is
  the stacked head at row `5184 t + p`, channel `q` — the body's value at an entry reads only row `p` of the tile, column
  `q` of the weights and entry `q` of the bias —, so every point writes back the restriction of the one function
  `Heads.stacked X Wt Bb` to its tile; and the 49 tiles cover all 254016 = 49 * 5184 rows (row `r` lies in tile `r / 5184`).
  Hence the result array IS `Heads.stacked X Wt Bb`.
-/
import proofs.«401457_j52802327937436_3_alg».proof.Proof.IdealRegion
import proofs.«401457_j52802327937436_3_alg».proof.Proof.BodyValue
import Idealize.ShloMosaic.Lib.Pipeline.Value

noncomputable section

namespace Cert.KernelIdeal.StackedValue

open Cert.KernelIdeal Cert.KernelIdeal.Gen Cert.KernelIdeal.Region Cert.Heads
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The three operand arrays as the region finds them: the flattened feature map, the stacked weights transposed, the
    stacked bias row. -/
abbrev X (c : Dev nD) : FVec Ideal S254016x384 .f32 := V m c main_v4
abbrev Wt (c : Dev nD) : FVec Ideal S384x52 .f32 := V m c main_v2
abbrev Bb (c : Dev nD) : FVec Ideal S1x52 .f32 := V m c main_v3

/-- The three input blocks at a point. -/
abbrev xblk (c : Dev nD) (t : Fin cfg0.N) : Vec Ideal S5184x384 .f32 := iblk m c 0 t
abbrev wblk (c : Dev nD) (t : Fin cfg0.N) : Vec Ideal S384x52 .f32 := iblk m c 1 t
abbrev bblk (c : Dev nD) (t : Fin cfg0.N) : Vec Ideal S1x52 .f32 := iblk m c 2 t

theorem hz : (![0, 0] : Fin 2 → Nat) = fun _ => 0 := funext fun a => by fin_cases a <;> rfl

/-- The index maps over the grid: the tile windows sit at block `(t, 0)`, the weights and the bias at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of tile `t` is row `5184 t + p` of the array. -/
def row (t : Fin cfg0.N) (p : Fin 5184) : Fin 254016 :=
  ⟨t.val * 5184 + p.val, by have := t.isLt; have h : cfg0.N = 49 := N_0; have := p.isLt; omega⟩

theorem emb_x (t : Fin cfg0.N) (p : Fin 5184) (k : Fin 384) : ((cfg0.win 0).blk t).view.emb (ix2 p k) = ix2 (row t p) k := by
  obtain ⟨e0, e1, -⟩ := idx_facts t
  funext a; apply Fin.ext
  match a with
  | ⟨0, _⟩ => show win0_0.index t (0 : Fin 2) * 5184 + 1 * p.val = t.val * 5184 + p.val; omega
  | ⟨1, _⟩ => show win0_0.index t (1 : Fin 2) * 384 + 1 * k.val = k.val; omega

theorem emb_w (t : Fin cfg0.N) (k : Fin 384) (q : Fin 52) : ((cfg0.win 1).blk t).view.emb (ix2 k q) = ix2 k q := by
  obtain ⟨-, -, e2, e3, -⟩ := idx_facts t
  funext a; apply Fin.ext
  match a with
  | ⟨0, _⟩ => show win0_1.index t (0 : Fin 2) * 384 + 1 * k.val = k.val; omega
  | ⟨1, _⟩ => show win0_1.index t (1 : Fin 2) * 52 + 1 * q.val = q.val; omega

theorem emb_b (t : Fin cfg0.N) (q : Fin 52) : ((cfg0.win 2).blk t).view.emb (ix2 (0 : Fin 1) q) = ix2 (0 : Fin 1) q := by
  obtain ⟨-, -, -, -, e4, e5, -⟩ := idx_facts t
  funext a; apply Fin.ext
  match a with
  | ⟨0, _⟩ => show win0_2.index t (0 : Fin 2) * 1 + 1 * 0 = 0; omega
  | ⟨1, _⟩ => show win0_2.index t (1 : Fin 2) * 52 + 1 * q.val = q.val; omega

theorem emb_out (t : Fin cfg0.N) (p : Fin 5184) (q : Fin 52) : ((cfg0.win 3).blk t).view.emb (ix2 p q) = ix2 (row t p) q := by
  obtain ⟨-, -, -, -, -, -, e6, e7⟩ := idx_facts t
  funext a; apply Fin.ext
  match a with
  | ⟨0, _⟩ => show win0_3.index t (0 : Fin 2) * 5184 + 1 * p.val = t.val * 5184 + p.val; omega
  | ⟨1, _⟩ => show win0_3.index t (1 : Fin 2) * 52 + 1 * q.val = q.val; omega

/-- The input blocks read where the tile's row says. -/
theorem xblk_at (c : Dev nD) (t : Fin cfg0.N) (p : Fin 5184) (k : Fin 384) : xblk m c t (ix2 p k) = X m c (ix2 (row t p) k) := by
  show V m c main_v4 (((cfg0.win 0).blk t).view.emb (ix2 p k)) = V m c main_v4 (ix2 (row t p) k)
  rw [emb_x]
theorem wblk_at (c : Dev nD) (t : Fin cfg0.N) (k : Fin 384) (q : Fin 52) : wblk m c t (ix2 k q) = Wt m c (ix2 k q) := by
  show V m c main_v2 (((cfg0.win 1).blk t).view.emb (ix2 k q)) = V m c main_v2 (ix2 k q)
  rw [emb_w]
theorem bblk_at (c : Dev nD) (t : Fin cfg0.N) (q : Fin 52) : bblk m c t (ix2 (0 : Fin 1) q) = Bb m c (ix2 (0 : Fin 1) q) := by
  show V m c main_v3 (((cfg0.win 2).blk t).view.emb (ix2 (0 : Fin 1) q)) = V m c main_v3 (ix2 (0 : Fin 1) q)
  rw [emb_b]

/-- What point `t` writes back is tile `t` of the stacked head of the operand arrays. -/
theorem flushed_eq (c : Dev nD) (t : Fin cfg0.N) :
    (dats m 0 c).flushed 3 t = ((cfg0.win 3).blk t).view.read (Elt Ideal) (stacked (X m c) (Wt m c) (Bb m c)) := by
  show (cfg0.win 3).cut (grid0.coords t) ((dats m 0 c).after 3 t) = _
  rw [after3]
  unfold outBlock
  rw [View.canon_unit_zero hz]
  simp only [View.ld_unit_zero (S := S5184x384) hz, View.ld_unit_zero (S := S384x52) hz, View.ld_unit_zero (S := S1x52) hz]
  funext j
  obtain ⟨p, q, rfl⟩ : ∃ (p : Fin 5184) (q : Fin 52), j = ix2 p q := ⟨j 0, j 1, eq_ix2 j⟩
  show k0_pay1 (F := Ideal) (xblk m c t) (wblk m c t) (bblk m c t) (ix2 p q) = stacked (X m c) (Wt m c) (Bb m c) (((cfg0.win 3).blk t).view.emb (ix2 p q))
  rw [emb_out]
  refine (BodyValue.pay_at (xblk m c t) (wblk m c t) (bblk m c t) p q).trans ?_
  show act q _ = act q ((∑ k : Fin 384, X m c (ix2 (row t p) k) * Wt m c (ix2 k q)) + Bb m c (ix2 (0 : Fin 1) q))
  rw [bblk_at]
  refine congrArg (act q) (congrArg (· + Bb m c (ix2 (0 : Fin 1) q)) (Finset.sum_congr rfl fun k _ => ?_))
  rw [xblk_at, wblk_at]

/-- An index of the result lies in point `t`'s tile iff each coordinate lies in the tile's range on its axis. -/
theorem mem_blk (t : Fin cfg0.N) (i : S254016x52.Idx) :
    i ∈ ((cfg0.win 3).blk t).view.set ↔ ∀ a : Fin 2, win0_3.index t a * S5184x52.size a ≤ (i a).val ∧ (i a).val < win0_3.index t a * S5184x52.size a + S5184x52.size a := by
  show i ∈ ((View.whole main_v5).slice (win0_3.rect t)).set ↔ _
  rw [View.set_slice_whole, Rect.mem_set_unit]
  exact Iff.rfl

/-- Every entry of the result lies in the tile of its row. -/
theorem cover (i : S254016x52.Idx) : ∃ t : Fin cfg0.N, (cfg0.win 3).flush t = true ∧ i ∈ ((cfg0.win 3).blk t).view.set := by
  have hi0 : (i 0).val < 254016 := (i 0).isLt
  have hi1 : (i 1).val < 52 := (i 1).isLt
  have hN : cfg0.N = 49 := N_0
  refine ⟨⟨(i 0).val / 5184, by omega⟩, flush0_3 _, ?_⟩
  rw [mem_blk]
  obtain ⟨-, -, -, -, -, -, e6, e7⟩ := idx_facts ⟨(i 0).val / 5184, by omega⟩
  intro a
  match a with
  | ⟨0, _⟩ =>
    show win0_3.index _ (0 : Fin 2) * 5184 ≤ (i 0).val ∧ (i 0).val < win0_3.index _ (0 : Fin 2) * 5184 + 5184
    rw [e6]; show (i 0).val / 5184 * 5184 ≤ (i 0).val ∧ (i 0).val < (i 0).val / 5184 * 5184 + 5184; omega
  | ⟨1, _⟩ =>
    show win0_3.index _ (1 : Fin 2) * 52 ≤ (i 1).val ∧ (i 1).val < win0_3.index _ (1 : Fin 2) * 52 + 52
    rw [e7]; omega

/-- The result array after the run is the stacked head of the operand arrays. -/
theorem final (c : Dev nD) : (dats m 0 c).arrAt 3 cfg0.N = stacked (X m c) (Wt m c) (Bb m c) :=
  (dats m 0 c).arrAt_eq_of_cover 3 _ (fun t _ => flushed_eq m c t) cover

end Cert.KernelIdeal.StackedValue

end
-- ==== Proof.Operands.lean ====
/-
  The three operand arrays of the stacked head, read at an index.

  The six weight matrices (4, 12, 4, 12, 4 and 16 rows of 384 columns) are laid one under another into a 52 x 384
  matrix, which is then transposed: entry (k, q) of the 384 x 52 result is entry (q - r, k) of the piece whose rows
  r .. r + (its height) - 1 hold row q, where r = 0, 4, 16, 20, 32, 36 counts the rows of the pieces before it.
  The six bias vectors are laid end to end into 52 entries and given a leading axis of length one: entry (0, q) of the
  1 x 52 result is entry q - r of the piece that holds q. The feature map, 4 x 252 x 252 x 384, is read as 254016 rows
  of 384 in row-major order, so that row (b * 252 + h) * 252 + v, column k, is entry (b, h, v, k).
-/
import proofs.«401457_j52802327937436_3_alg».proof.Proof.Heads
import proofs.«401457_j52802327937436_3_alg».proof.Proof.Gen.KernelIdeal
import Idealize.ShloMosaic.Lib.Pipeline.Value
import Idealize.ShloMosaic.Lib.ValueLayout
import Idealize.ShloMosaic.Lib.ValueIdx

noncomputable section
open Idealize.ShloMosaic Idealize.ShloMosaic.ValueIdx Cert.Heads

namespace Cert.KernelIdeal.Operands
open Cert.KernelIdeal Facts₀
variable {α : Type}
/-- the stacked weights, transposed -/
abbrev stackedT (u0 : S4x384.Idx → α) (u1 : S12x384.Idx → α) (u2 : S4x384.Idx → α) (u3 : S12x384.Idx → α) (u4 : S4x384.Idx → α) (u5 : S16x384.Idx → α) : S384x52.Idx → α :=
  transpose S384x52 [1, 0] (concatenate S52x384 0 [⟨S4x384, u0⟩, ⟨S12x384, u1⟩, ⟨S4x384, u2⟩, ⟨S12x384, u3⟩, ⟨S4x384, u4⟩, ⟨S16x384, u5⟩] concatenates_S4x384_S12x384_S4x384_S12x384_S4x384_S16x384_S52x384_d0) transposes_S52x384_S384x52_1_0
abbrev biasRow (c0 : S4.Idx → α) (c1 : S12.Idx → α) (c2 : S4.Idx → α) (c3 : S12.Idx → α) (c4 : S4.Idx → α) (c5 : S16.Idx → α) : S1x52.Idx → α :=
  shapeCast S1x52 (concatenate S52 0 [⟨S4, c0⟩, ⟨S12, c1⟩, ⟨S4, c2⟩, ⟨S12, c3⟩, ⟨S4, c4⟩, ⟨S16, c5⟩] concatenates_S4_S12_S4_S12_S4_S16_S52_d0) shapeCasts_S52_S1x52
variable (u0 : S4x384.Idx → α) (u1 : S12x384.Idx → α) (u2 : S4x384.Idx → α) (u3 : S12x384.Idx → α) (u4 : S4x384.Idx → α) (u5 : S16x384.Idx → α)
variable (c0 : S4.Idx → α) (c1 : S12.Idx → α) (c2 : S4.Idx → α) (c3 : S12.Idx → α) (c4 : S4.Idx → α) (c5 : S16.Idx → α)

/-! The weights: the transpose swaps the two coordinates; the stacked row `q` lies in the named piece, `j` rows below the
    piece's first row, and the column is untouched. -/
theorem stackedT_0 (k : Fin 384) (j : Fin 4) (q : Fin 52) (hq : q.val = j.val) : stackedT u0 u1 u2 u3 u4 u5 (ix2 k q) = u0 (ix2 j k) := by
  refine (transpose_ix2_apply _ _ k q).trans ?_
  refine concatenate_apply_piece (t := S52x384) 0 _ _ (ix2 q k) 0 (by show 0 < 6; omega) S4x384 u0 rfl rfl 0 rfl (ix2 j k) ?_ ?_
  · intro b hb
    match b, hb with
    | ⟨0, _⟩, hb => exact absurd rfl hb
    | ⟨1, _⟩, _ => rfl
  · show 0 + j.val = q.val
    omega
theorem stackedT_1 (k : Fin 384) (j : Fin 12) (q : Fin 52) (hq : q.val = 4 + j.val) : stackedT u0 u1 u2 u3 u4 u5 (ix2 k q) = u1 (ix2 j k) := by
  refine (transpose_ix2_apply _ _ k q).trans ?_
  refine concatenate_apply_piece (t := S52x384) 0 _ _ (ix2 q k) 1 (by show 1 < 6; omega) S12x384 u1 rfl rfl 4 rfl (ix2 j k) ?_ ?_
  · intro b hb
    match b, hb with
    | ⟨0, _⟩, hb => exact absurd rfl hb
    | ⟨1, _⟩, _ => rfl
  · show 4 + j.val = q.val
    omega
theorem stackedT_2 (k : Fin 384) (j : Fin 4) (q : Fin 52) (hq : q.val = 16 + j.val) : stackedT u0 u1 u2 u3 u4 u5 (ix2 k q) = u2 (ix2 j k) := by
  refine (transpose_ix2_apply _ _ k q).trans ?_
  refine concatenate_apply_piece (t := S52x384) 0 _ _ (ix2 q k) 2 (by show 2 < 6; omega) S4x384 u2 rfl rfl 16 rfl (ix2 j k) ?_ ?_
  · intro b hb
    match b, hb with
    | ⟨0, _⟩, hb => exact absurd rfl hb
    | ⟨1, _⟩, _ => rfl
  · show 16 + j.val = q.val
    omega
theorem stackedT_3 (k : Fin 384) (j : Fin 12) (q : Fin 52) (hq : q.val = 20 + j.val) : stackedT u0 u1 u2 u3 u4 u5 (ix2 k q) = u3 (ix2 j k) := by
  refine (transpose_ix2_apply _ _ k q).trans ?_
  refine concatenate_apply_piece (t := S52x384) 0 _ _ (ix2 q k) 3 (by show 3 < 6; omega) S12x384 u3 rfl rfl 20 rfl (ix2 j k) ?_ ?_
  · intro b hb
    match b, hb with
    | ⟨0, _⟩, hb => exact absurd rfl hb
    | ⟨1, _⟩, _ => rfl
  · show 20 + j.val = q.val
    omega
theorem stackedT_4 (k : Fin 384) (j : Fin 4) (q : Fin 52) (hq : q.val = 32 + j.val) : stackedT u0 u1 u2 u3 u4 u5 (ix2 k q) = u4 (ix2 j k) := by
  refine (transpose_ix2_apply _ _ k q).trans ?_
  refine concatenate_apply_piece (t := S52x384) 0 _ _ (ix2 q k) 4 (by show 4 < 6; omega) S4x384 u4 rfl rfl 32 rfl (ix2 j k) ?_ ?_
  · intro b hb
    match b, hb with
    | ⟨0, _⟩, hb => exact absurd rfl hb
    | ⟨1, _⟩, _ => rfl
  · show 32 + j.val = q.val
    omega
theorem stackedT_5 (k : Fin 384) (j : Fin 16) (q : Fin 52) (hq : q.val = 36 + j.val) : stackedT u0 u1 u2 u3 u4 u5 (ix2 k q) = u5 (ix2 j k) := by
  refine (transpose_ix2_apply _ _ k q).trans ?_
  refine concatenate_apply_piece (t := S52x384) 0 _ _ (ix2 q k) 5 (by show 5 < 6; omega) S16x384 u5 rfl rfl 36 rfl (ix2 j k) ?_ ?_
  · intro b hb
    match b, hb with
    | ⟨0, _⟩, hb => exact absurd rfl hb
    | ⟨1, _⟩, _ => rfl
  · show 36 + j.val = q.val
    omega

/-! The biases: the leading axis of length one carries no information; entry `q` of the 52 lies in the named piece, `j`
    entries after the piece's first. -/
theorem biasRow_0 (j : Fin 4) (q : Fin 52) (hq : q.val = j.val) : biasRow c0 c1 c2 c3 c4 c5 (ix2 (0 : Fin 1) q) = c0 (ix1 j) := by
  refine (shapeCast_a_1a_apply _ _ (0 : Fin 1) q).trans ?_
  refine concatenate_apply_piece (t := S52) 0 _ _ (ix1 q) 0 (by show 0 < 6; omega) S4 c0 rfl rfl 0 rfl (ix1 j) ?_ ?_
  · intro b hb
    match b, hb with
    | ⟨0, _⟩, hb => exact absurd rfl hb
  · show 0 + j.val = q.val
    omega
theorem biasRow_1 (j : Fin 12) (q : Fin 52) (hq : q.val = 4 + j.val) : biasRow c0 c1 c2 c3 c4 c5 (ix2 (0 : Fin 1) q) = c1 (ix1 j) := by
  refine (shapeCast_a_1a_apply _ _ (0 : Fin 1) q).trans ?_
  refine concatenate_apply_piece (t := S52) 0 _ _ (ix1 q) 1 (by show 1 < 6; omega) S12 c1 rfl rfl 4 rfl (ix1 j) ?_ ?_
  · intro b hb
    match b, hb with
    | ⟨0, _⟩, hb => exact absurd rfl hb
  · show 4 + j.val = q.val
    omega
theorem biasRow_2 (j : Fin 4) (q : Fin 52) (hq : q.val = 16 + j.val) : biasRow c0 c1 c2 c3 c4 c5 (ix2 (0 : Fin 1) q) = c2 (ix1 j) := by
  refine (shapeCast_a_1a_apply _ _ (0 : Fin 1) q).trans ?_
  refine concatenate_apply_piece (t := S52) 0 _ _ (ix1 q) 2 (by show 2 < 6; omega) S4 c2 rfl rfl 16 rfl (ix1 j) ?_ ?_
  · intro b hb
    match b, hb with
    | ⟨0, _⟩, hb => exact absurd rfl hb
  · show 16 + j.val = q.val
    omega
theorem biasRow_3 (j : Fin 12) (q : Fin 52) (hq : q.val = 20 + j.val) : biasRow c0 c1 c2 c3 c4 c5 (ix2 (0 : Fin 1) q) = c3 (ix1 j) := by
  refine (shapeCast_a_1a_apply _ _ (0 : Fin 1) q).trans ?_
  refine concatenate_apply_piece (t := S52) 0 _ _ (ix1 q) 3 (by show 3 < 6; omega) S12 c3 rfl rfl 20 rfl (ix1 j) ?_ ?_
  · intro b hb
    match b, hb with
    | ⟨0, _⟩, hb => exact absurd rfl hb
  · show 20 + j.val = q.val
    omega
theorem biasRow_4 (j : Fin 4) (q : Fin 52) (hq : q.val = 32 + j.val) : biasRow c0 c1 c2 c3 c4 c5 (ix2 (0 : Fin 1) q) = c4 (ix1 j) := by
  refine (shapeCast_a_1a_apply _ _ (0 : Fin 1) q).trans ?_
  refine concatenate_apply_piece (t := S52) 0 _ _ (ix1 q) 4 (by show 4 < 6; omega) S4 c4 rfl rfl 32 rfl (ix1 j) ?_ ?_
  · intro b hb
    match b, hb with
    | ⟨0, _⟩, hb => exact absurd rfl hb
  · show 32 + j.val = q.val
    omega
theorem biasRow_5 (j : Fin 16) (q : Fin 52) (hq : q.val = 36 + j.val) : biasRow c0 c1 c2 c3 c4 c5 (ix2 (0 : Fin 1) q) = c5 (ix1 j) := by
  refine (shapeCast_a_1a_apply _ _ (0 : Fin 1) q).trans ?_
  refine concatenate_apply_piece (t := S52) 0 _ _ (ix1 q) 5 (by show 5 < 6; omega) S16 c5 rfl rfl 36 rfl (ix1 j) ?_ ?_
  · intro b hb
    match b, hb with
    | ⟨0, _⟩, hb => exact absurd rfl hb
  · show 36 + j.val = q.val
    omega
/-- the feature map flattened: both indices have the row-major position `((b * 252 + h) * 252 + v) * 384 + k` -/
theorem flat_at (x : S4x252x252x384.Idx → α) (b : Fin 4) (h v : Fin 252) (k : Fin 384) :
    shapeCast S254016x384 x shapeCasts_S4x252x252x384_S254016x384 (ix2 (pix b h v) k) = x (ix4 b h v k) := by
  refine shapeCast_apply x _ _ (ix4 b h v k) ?_
  rw [Shape.rowMajor_val_four, Shape.rowMajor_val_two]
  show ((b.val * 252 + h.val) * 252 + v.val) * 384 + k.val = (pix b h v).val * 384 + k.val
  rw [Heads.pix_val]
end Cert.KernelIdeal.Operands
end
-- ==== Proof.Results.lean ====
/-
  The six results the host program cuts out of the stacked head's 254016 x 52 result, read at an index.

  Result number N is a block of consecutive columns [off, off + width) of the stacked result; its 254016 rows are
  unflattened row-major to the 4 x 252 x 252 pixels, and for three of the six the block's columns are unflattened as
  well, to anchors x 3 or anchors x 4. A reshape keeps the row-major position of every entry and a unit-stride slice
  shifts the column by its offset, so

      entry (b, h, v, a)    of a rank-4 result = entry (pix b h v, off + a)             of the stacked result,
      entry (b, h, v, a, j) of a rank-5 result = entry (pix b h v, off + (n * a + j))   of the stacked result

  (n = 3 or 4 the size of the last axis), where pix b h v = (b * 252 + h) * 252 + v is the pixel's flattened row.
  Each proof names the intermediate entry (pix b h v, local column) of the sliced 254016 x width array, checks that
  the two row-major positions agree, and then shifts the column by the slice's offset.
-/
import proofs.«401457_j52802327937436_3_alg».proof.Proof.Heads
import proofs.«401457_j52802327937436_3_alg».proof.Proof.Gen.KernelIdeal
import Idealize.ShloMosaic.Lib.Pipeline.Value
import Idealize.ShloMosaic.Lib.ValueIdx

noncomputable section
open Idealize.ShloMosaic Idealize.ShloMosaic.ValueIdx Cert.Heads

namespace Cert.KernelIdeal.Results
open Cert.KernelIdeal Facts₀
variable {α : Type} (out : S254016x52.Idx → α) (b : Fin 4) (h v : Fin 252)

/-- Result 1 (columns 0..3, 4 x 252 x 252 x 4): entry (b, h, v, a) is entry (pix b h v, a) of the stacked result. -/
theorem occ_at (a : Fin 4) (q : Fin 52) (hq : q.val = a.val) :
    shapeCast S4x252x252x4 (extractStridedSlice S254016x4 ![0, 0] out slices_S254016x52_S254016x4_0_0) shapeCasts_S254016x4_S4x252x252x4 (ix4 b h v a) = out (ix2 (pix b h v) q) := by
  -- the reshape: entry (b, h, v, a) sits at the row-major position of entry (pix b h v, a) of the 254016 x 4 block
  refine (shapeCast_apply _ _ (ix4 b h v a) (ix2 (pix b h v) a) ?_).trans ?_
  · rw [Shape.rowMajor_val_two, Shape.rowMajor_val_four]
    show (pix b h v).val * 4 + a.val = ((b.val * 252 + h.val) * 252 + v.val) * 4 + a.val
    rw [pix_val]
  -- the slice: rows are kept, the column is shifted by 0
  · refine extractStridedSlice_apply _ out _ _ (ix2 (pix b h v) q) fun ax => ?_
    match ax with
    | ⟨0, _⟩ => show (pix b h v).val = 0 + (pix b h v).val; omega
    | ⟨1, _⟩ => show q.val = 0 + a.val; omega

/-- Result 2 (columns 4..15, 4 x 252 x 252 x 4 x 3): entry (b, h, v, a, j) is entry (pix b h v, 4 + (3 a + j)) of the stacked result. -/
theorem loc_at (a : Fin 4) (j : Fin 3) (q : Fin 52) (hq : q.val = 4 + (3 * a.val + j.val)) :
    shapeCast S4x252x252x4x3 (extractStridedSlice S254016x12 ![0, 4] out slices_S254016x52_S254016x12_0_4) shapeCasts_S254016x12_S4x252x252x4x3 (ix5 b h v a j) = out (ix2 (pix b h v) q) := by
  -- the local column 3 * a + j of the 254016 x 12 block
  have hc : 3 * a.val + j.val < 12 := by have := a.isLt; have := j.isLt; omega
  -- the reshape: entry (b, h, v, a, j) sits at the row-major position of entry (pix b h v, 3 * a + j) of the block
  refine (shapeCast_apply _ _ (ix5 b h v a j) (ix2 (pix b h v) ⟨3 * a.val + j.val, hc⟩) ?_).trans ?_
  · rw [Shape.rowMajor_val_two, Shape.rowMajor_val_five]
    show (pix b h v).val * 12 + (3 * a.val + j.val) = (((b.val * 252 + h.val) * 252 + v.val) * 4 + a.val) * 3 + j.val
    rw [pix_val]; omega
  -- the slice: rows are kept, the column is shifted by 4
  · refine extractStridedSlice_apply _ out _ _ (ix2 (pix b h v) q) fun ax => ?_
    match ax with
    | ⟨0, _⟩ => show (pix b h v).val = 0 + (pix b h v).val; omega
    | ⟨1, _⟩ => show q.val = 4 + (3 * a.val + j.val); exact hq

/-- Result 3 (columns 16..19, 4 x 252 x 252 x 4): entry (b, h, v, a) is entry (pix b h v, 16 + a) of the stacked result. -/
theorem angle_at (a : Fin 4) (q : Fin 52) (hq : q.val = 16 + a.val) :
    shapeCast S4x252x252x4 (extractStridedSlice S254016x4 ![0, 16] out slices_S254016x52_S254016x4_0_16) shapeCasts_S254016x4_S4x252x252x4 (ix4 b h v a) = out (ix2 (pix b h v) q) := by
  -- the reshape: entry (b, h, v, a) sits at the row-major position of entry (pix b h v, a) of the 254016 x 4 block
  refine (shapeCast_apply _ _ (ix4 b h v a) (ix2 (pix b h v) a) ?_).trans ?_
  · rw [Shape.rowMajor_val_two, Shape.rowMajor_val_four]
    show (pix b h v).val * 4 + a.val = ((b.val * 252 + h.val) * 252 + v.val) * 4 + a.val
    rw [pix_val]
  -- the slice: rows are kept, the column is shifted by 16
  · refine extractStridedSlice_apply _ out _ _ (ix2 (pix b h v) q) fun ax => ?_
    match ax with
    | ⟨0, _⟩ => show (pix b h v).val = 0 + (pix b h v).val; omega
    | ⟨1, _⟩ => show q.val = 16 + a.val; omega

/-- Result 4 (columns 20..31, 4 x 252 x 252 x 4 x 3): entry (b, h, v, a, j) is entry (pix b h v, 20 + (3 a + j)) of the stacked result. -/
theorem size_at (a : Fin 4) (j : Fin 3) (q : Fin 52) (hq : q.val = 20 + (3 * a.val + j.val)) :
    shapeCast S4x252x252x4x3 (extractStridedSlice S254016x12 ![0, 20] out slices_S254016x52_S254016x12_0_20) shapeCasts_S254016x12_S4x252x252x4x3 (ix5 b h v a j) = out (ix2 (pix b h v) q) := by
  -- the local column 3 * a + j of the 254016 x 12 block
  have hc : 3 * a.val + j.val < 12 := by have := a.isLt; have := j.isLt; omega
  -- the reshape: entry (b, h, v, a, j) sits at the row-major position of entry (pix b h v, 3 * a + j) of the block
  refine (shapeCast_apply _ _ (ix5 b h v a j) (ix2 (pix b h v) ⟨3 * a.val + j.val, hc⟩) ?_).trans ?_
  · rw [Shape.rowMajor_val_two, Shape.rowMajor_val_five]
    show (pix b h v).val * 12 + (3 * a.val + j.val) = (((b.val * 252 + h.val) * 252 + v.val) * 4 + a.val) * 3 + j.val
    rw [pix_val]; omega
  -- the slice: rows are kept, the column is shifted by 20
  · refine extractStridedSlice_apply _ out _ _ (ix2 (pix b h v) q) fun ax => ?_
    match ax with
    | ⟨0, _⟩ => show (pix b h v).val = 0 + (pix b h v).val; omega
    | ⟨1, _⟩ => show q.val = 20 + (3 * a.val + j.val); exact hq

/-- Result 5 (columns 32..35, 4 x 252 x 252 x 4): entry (b, h, v, a) is entry (pix b h v, 32 + a) of the stacked result. -/
theorem heading_at (a : Fin 4) (q : Fin 52) (hq : q.val = 32 + a.val) :
    shapeCast S4x252x252x4 (extractStridedSlice S254016x4 ![0, 32] out slices_S254016x52_S254016x4_0_32) shapeCasts_S254016x4_S4x252x252x4 (ix4 b h v a) = out (ix2 (pix b h v) q) := by
  -- the reshape: entry (b, h, v, a) sits at the row-major position of entry (pix b h v, a) of the 254016 x 4 block
  refine (shapeCast_apply _ _ (ix4 b h v a) (ix2 (pix b h v) a) ?_).trans ?_
  · rw [Shape.rowMajor_val_two, Shape.rowMajor_val_four]
    show (pix b h v).val * 4 + a.val = ((b.val * 252 + h.val) * 252 + v.val) * 4 + a.val
    rw [pix_val]
  -- the slice: rows are kept, the column is shifted by 32
  · refine extractStridedSlice_apply _ out _ _ (ix2 (pix b h v) q) fun ax => ?_
    match ax with
    | ⟨0, _⟩ => show (pix b h v).val = 0 + (pix b h v).val; omega
    | ⟨1, _⟩ => show q.val = 32 + a.val; omega

/-- Result 6 (columns 36..51, 4 x 252 x 252 x 4 x 4): entry (b, h, v, a, cl) is entry (pix b h v, 36 + (4 a + cl)) of the stacked result. -/
theorem clf_at (a : Fin 4) (cl : Fin 4) (q : Fin 52) (hq : q.val = 36 + (4 * a.val + cl.val)) :
    shapeCast S4x252x252x4x4 (extractStridedSlice S254016x16 ![0, 36] out slices_S254016x52_S254016x16_0_36) shapeCasts_S254016x16_S4x252x252x4x4 (ix5 b h v a cl) = out (ix2 (pix b h v) q) := by
  -- the local column 4 * a + cl of the 254016 x 16 block
  have hc : 4 * a.val + cl.val < 16 := by have := a.isLt; have := cl.isLt; omega
  -- the reshape: entry (b, h, v, a, cl) sits at the row-major position of entry (pix b h v, 4 * a + cl) of the block
  refine (shapeCast_apply _ _ (ix5 b h v a cl) (ix2 (pix b h v) ⟨4 * a.val + cl.val, hc⟩) ?_).trans ?_
  · rw [Shape.rowMajor_val_two, Shape.rowMajor_val_five]
    show (pix b h v).val * 16 + (4 * a.val + cl.val) = (((b.val * 252 + h.val) * 252 + v.val) * 4 + a.val) * 4 + cl.val
    rw [pix_val]; omega
  -- the slice: rows are kept, the column is shifted by 36
  · refine extractStridedSlice_apply _ out _ _ (ix2 (pix b h v) q) fun ax => ?_
    match ax with
    | ⟨0, _⟩ => show (pix b h v).val = 0 + (pix b h v).val; omega
    | ⟨1, _⟩ => show q.val = 36 + (4 * a.val + cl.val); exact hq

end Cert.KernelIdeal.Results

end
-- ==== Proof.RefHeads.lean ====
/-
  The reference program computes each of the six detection heads by itself: the feature map against the head's weight
  matrix (a contraction over the 384 features), plus the head's bias broadcast over the pixels; the first and the fifth
  head then take 1 / (1 + exp (-z)) of each logit z, and the second, fourth and sixth split their channel axis in two
  (12 = 4 x 3, 12 = 4 x 3, 16 = 4 x 4), row-major. Read at one index, each result is therefore the logit of its pixel
  and channel (`Cert.Heads.logit`), under the logistic function for the first and the fifth head; for the split
  results the channel is the row-major position of the last two coordinates.
-/
import proofs.«401457_j52802327937436_3_alg».proof.Proof.Heads
import proofs.«401457_j52802327937436_3_alg».proof.Proof.Gen.ReferenceIdeal.Read
import Idealize.ShloMosaic.Lib.IdealHost

noncomputable section

open Idealize.ShloMosaic Idealize.ShloMosaic.ValueIdx Cert.Heads

namespace Cert.ReferenceIdeal.Heads
open Cert.ReferenceIdeal Cert.ReferenceIdeal.Read
variable (x0 : FVec Ideal S4x252x252x384 .f32) (b : Fin 4) (h v : Fin 252)

/-! ### The index functions of the reference's operations, at explicit coordinates -/

/-- The bit pattern of the reference's constant is the extended real one. -/
private theorem one_word : FloatOps.ofBits (F := Ideal) .f32 0x3F800000#32 = 1 := by
  rw [Ideal.ofBits_def, Ideal.ofBits_one_f32]

/-- A contraction over the features followed by the broadcast bias, read at pixel `(b, h, v)` and channel `a`, is the
    logit: the left index is the pixel with the contracted feature, the right one the channel's weight row, and the
    two broadcasts of the bias read the channel. One statement per channel count (4, 12, 16). -/
private theorem read4 (w : FVec Ideal S4x384 .f32) (c : FVec Ideal S4 .f32) (a : Fin 4) :
    (∑ k : Fin 384, x0 (lidx_main_v0 (ix4 b h v a) k) * w (ridx_main_v0 (ix4 b h v a) k))
      + c (idx_main_v1 (idx_main_v2 (ix4 b h v a))) = logit x0 w c b h v a := by
  unfold logit
  have e : idx_main_v1 (idx_main_v2 (ix4 b h v a)) = ix1 a := funext fun d => match d with | ⟨0, _⟩ => rfl
  rw [e]
  congr 1
  refine Finset.sum_congr rfl fun k _ => ?_
  have el : lidx_main_v0 (ix4 b h v a) k = ix4 b h v k :=
    funext fun d => match d with | ⟨0, _⟩ => rfl | ⟨1, _⟩ => rfl | ⟨2, _⟩ => rfl | ⟨3, _⟩ => rfl
  have er : ridx_main_v0 (ix4 b h v a) k = ix2 a k := funext fun d => match d with | ⟨0, _⟩ => rfl | ⟨1, _⟩ => rfl
  rw [el, er]

private theorem read12 (w : FVec Ideal S12x384 .f32) (c : FVec Ideal S12 .f32) (o : Fin 12) :
    (∑ k : Fin 384, x0 (lidx_main_v10 (ix4 b h v o) k) * w (ridx_main_v10 (ix4 b h v o) k))
      + c (idx_main_v11 (idx_main_v12 (ix4 b h v o))) = logit x0 w c b h v o := by
  unfold logit
  have e : idx_main_v11 (idx_main_v12 (ix4 b h v o)) = ix1 o := funext fun d => match d with | ⟨0, _⟩ => rfl
  rw [e]
  congr 1
  refine Finset.sum_congr rfl fun k _ => ?_
  have el : lidx_main_v10 (ix4 b h v o) k = ix4 b h v k :=
    funext fun d => match d with | ⟨0, _⟩ => rfl | ⟨1, _⟩ => rfl | ⟨2, _⟩ => rfl | ⟨3, _⟩ => rfl
  have er : ridx_main_v10 (ix4 b h v o) k = ix2 o k := funext fun d => match d with | ⟨0, _⟩ => rfl | ⟨1, _⟩ => rfl
  rw [el, er]

private theorem read16 (w : FVec Ideal S16x384 .f32) (c : FVec Ideal S16 .f32) (o : Fin 16) :
    (∑ k : Fin 384, x0 (lidx_main_v34 (ix4 b h v o) k) * w (ridx_main_v34 (ix4 b h v o) k))
      + c (idx_main_v35 (idx_main_v36 (ix4 b h v o))) = logit x0 w c b h v o := by
  unfold logit
  have e : idx_main_v35 (idx_main_v36 (ix4 b h v o)) = ix1 o := funext fun d => match d with | ⟨0, _⟩ => rfl
  rw [e]
  congr 1
  refine Finset.sum_congr rfl fun k _ => ?_
  have el : lidx_main_v34 (ix4 b h v o) k = ix4 b h v k :=
    funext fun d => match d with | ⟨0, _⟩ => rfl | ⟨1, _⟩ => rfl | ⟨2, _⟩ => rfl | ⟨3, _⟩ => rfl
  have er : ridx_main_v34 (ix4 b h v o) k = ix2 o k := funext fun d => match d with | ⟨0, _⟩ => rfl | ⟨1, _⟩ => rfl
  rw [el, er]

/-- Splitting the channel axis 12 = 4 x 3 row-major: position `(b, h, v, a, j)` of the split array is position
    `(b, h, v, 3 * a + j)` of the array it splits. -/
private theorem split3 (a : Fin 4) (j : Fin 3) (o : Fin 12) (ho : o.val = 3 * a.val + j.val) :
    idx_main_v14 (ix5 b h v a j) = ix4 b h v o := by
  have hb := b.isLt; have hh := h.isLt; have hv := v.isLt; have ha := a.isLt; have hj := j.isLt
  funext d
  match d with
  | ⟨0, _⟩ => exact Fin.ext (by show ((((b.val * 252 + h.val) * 252 + v.val) * 4 + a.val) * 3 + j.val) / 762048 = b.val; omega)
  | ⟨1, _⟩ => exact Fin.ext (by show ((((b.val * 252 + h.val) * 252 + v.val) * 4 + a.val) * 3 + j.val) / 3024 % 252 = h.val; omega)
  | ⟨2, _⟩ => exact Fin.ext (by show ((((b.val * 252 + h.val) * 252 + v.val) * 4 + a.val) * 3 + j.val) / 12 % 252 = v.val; omega)
  | ⟨3, _⟩ => exact Fin.ext (by show ((((b.val * 252 + h.val) * 252 + v.val) * 4 + a.val) * 3 + j.val) % 12 = o.val; omega)

/-- Splitting the channel axis 16 = 4 x 4 row-major. -/
private theorem split4 (a : Fin 4) (cl : Fin 4) (o : Fin 16) (ho : o.val = 4 * a.val + cl.val) :
    idx_main_v38 (ix5 b h v a cl) = ix4 b h v o := by
  have hb := b.isLt; have hh := h.isLt; have hv := v.isLt; have ha := a.isLt; have hc := cl.isLt
  funext d
  match d with
  | ⟨0, _⟩ => exact Fin.ext (by show ((((b.val * 252 + h.val) * 252 + v.val) * 4 + a.val) * 4 + cl.val) / 1016064 = b.val; omega)
  | ⟨1, _⟩ => exact Fin.ext (by show ((((b.val * 252 + h.val) * 252 + v.val) * 4 + a.val) * 4 + cl.val) / 4032 % 252 = h.val; omega)
  | ⟨2, _⟩ => exact Fin.ext (by show ((((b.val * 252 + h.val) * 252 + v.val) * 4 + a.val) * 4 + cl.val) / 16 % 252 = v.val; omega)
  | ⟨3, _⟩ => exact Fin.ext (by show ((((b.val * 252 + h.val) * 252 + v.val) * 4 + a.val) * 4 + cl.val) % 16 = o.val; omega)

/-! ### The six results -/

theorem occ_at (x1 : FVec Ideal S4x384 .f32) (x2 : FVec Ideal S4 .f32) (a : Fin 4) :
    val_main_v9 (F := Ideal) x0 x1 x2 (ix4 b h v a) = Ideal.logistic (logit x0 x1 x2 b h v a) := by
  rw [val_main_v9_apply, val_main_v8_apply, val_main_cst_0_apply, val_main_v7_apply, val_main_v6_apply,
    val_main_cst_apply, val_main_v5_apply, val_main_v4_apply, val_main_v3_apply, val_main_v0_apply,
    val_main_v2_apply, val_main_v1_apply]
  rw [one_word, Ideal.hostDivf_def, Ideal.addf_def, Ideal.hostUnary_exp_def, Ideal.hostNegf_def, Ideal.negf_def,
    Ideal.addf_def, read4 x0 b h v x1 x2 a]
  rfl

theorem loc_at (x3 : FVec Ideal S12x384 .f32) (x4 : FVec Ideal S12 .f32) (a : Fin 4) (j : Fin 3) (o : Fin 12) (ho : o.val = 3 * a.val + j.val) :
    val_main_v14 (F := Ideal) x0 x3 x4 (ix5 b h v a j) = logit x0 x3 x4 b h v o := by
  rw [val_main_v14_apply, split3 b h v a j o ho, val_main_v13_apply, val_main_v10_apply, val_main_v12_apply,
    val_main_v11_apply, Ideal.addf_def, read12 x0 b h v x3 x4 o]

theorem angle_at (x5 : FVec Ideal S4x384 .f32) (x6 : FVec Ideal S4 .f32) (a : Fin 4) :
    val_main_v18 (F := Ideal) x0 x5 x6 (ix4 b h v a) = logit x0 x5 x6 b h v a := by
  rw [val_main_v18_apply, val_main_v15_apply, val_main_v17_apply, val_main_v16_apply, Ideal.addf_def]
  exact read4 x0 b h v x5 x6 a

theorem size_at (x7 : FVec Ideal S12x384 .f32) (x8 : FVec Ideal S12 .f32) (a : Fin 4) (j : Fin 3) (o : Fin 12) (ho : o.val = 3 * a.val + j.val) :
    val_main_v23 (F := Ideal) x0 x7 x8 (ix5 b h v a j) = logit x0 x7 x8 b h v o := by
  rw [val_main_v23_apply, show idx_main_v23 (ix5 b h v a j) = ix4 b h v o from split3 b h v a j o ho,
    val_main_v22_apply, val_main_v19_apply, val_main_v21_apply, val_main_v20_apply, Ideal.addf_def]
  exact read12 x0 b h v x7 x8 o

theorem heading_at (x9 : FVec Ideal S4x384 .f32) (x10 : FVec Ideal S4 .f32) (a : Fin 4) :
    val_main_v33 (F := Ideal) x0 x9 x10 (ix4 b h v a) = Ideal.logistic (logit x0 x9 x10 b h v a) := by
  rw [val_main_v33_apply, val_main_v32_apply, val_main_cst_2_apply, val_main_v31_apply, val_main_v30_apply,
    val_main_cst_1_apply, val_main_v29_apply, val_main_v28_apply, val_main_v27_apply, val_main_v24_apply,
    val_main_v26_apply, val_main_v25_apply]
  rw [one_word, Ideal.hostDivf_def, Ideal.addf_def, Ideal.hostUnary_exp_def, Ideal.hostNegf_def, Ideal.negf_def,
    Ideal.addf_def]
  exact congrArg (fun z => Ideal.div 1 (1 + Ideal.exp (-z))) (read4 x0 b h v x9 x10 a)

theorem clf_at (x11 : FVec Ideal S16x384 .f32) (x12 : FVec Ideal S16 .f32) (a : Fin 4) (cl : Fin 4) (o : Fin 16) (ho : o.val = 4 * a.val + cl.val) :
    val_main_v38 (F := Ideal) x0 x11 x12 (ix5 b h v a cl) = logit x0 x11 x12 b h v o := by
  rw [val_main_v38_apply, split4 b h v a cl o ho, val_main_v37_apply, val_main_v34_apply, val_main_v36_apply,
    val_main_v35_apply, Ideal.addf_def, read16 x0 b h v x11 x12 o]

end Cert.ReferenceIdeal.Heads
end
-- ==== Proof.Bridge.lean ====
/-
  The kernel's six results are the reference's six results, as functions of the same thirteen arguments.

  The host lines before the pallas_call make its operands out of the arguments: the feature map flattened to 254016
  rows (`X`), the six weight matrices stacked and transposed (`Wt`), the six bias vectors stacked into one row (`Bb`).
  The pallas_call leaves the stacked head `Heads.stacked X Wt Bb` in its result array, and the host lines after it cut
  six column ranges out of that array and unflatten them. Read at one entry — a pixel `(b, h, v)` and a channel —
  a result is therefore the stacked head at row `pix b h v` and the channel's column `q`; the stacked weights' column
  `q` is the head's own weight row, the stacked bias at `q` the head's own bias entry, and `act q` is the logistic function
  exactly for the first and the fifth head: the head's logit, as the reference computes it.
-/
import proofs.«401457_j52802327937436_3_alg».proof.Proof.StackedValue
import proofs.«401457_j52802327937436_3_alg».proof.Proof.Operands
import proofs.«401457_j52802327937436_3_alg».proof.Proof.Results
import proofs.«401457_j52802327937436_3_alg».proof.Proof.RefHeads
import Idealize.ShloMosaic.Lib.StableHlo.Run

noncomputable section

namespace Cert.KernelIdeal.Bridge

open Cert.KernelIdeal Cert.KernelIdeal.Gen Cert.KernelIdeal.Region Cert.KernelIdeal.StackedValue Cert.Heads
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-! ## The operands the host lines build -/

theorem X_eq (c : Dev nD) : X m c = shapeCast S254016x384 (m ((c : Thread nD τ).loc main_arg0)) Facts₀.shapeCasts_S4x252x252x384_S254016x384 := by
  show StableHlo.after hostOps0 (fun b => m (c, b)) (Proc.devRef .tc main_v4) = _
  after_results
  rfl

theorem Wt_eq (c : Dev nD) : Wt m c = Operands.stackedT (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg11)) := by
  show StableHlo.after hostOps0 (fun b => m (c, b)) (Proc.devRef .tc main_v2) = _
  after_results
  rfl

theorem Bb_eq (c : Dev nD) : Bb m c = Operands.biasRow (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) := by
  show StableHlo.after hostOps0 (fun b => m (c, b)) (Proc.devRef .tc main_v3) = _
  after_results
  rfl

/-! ## The result array the later lines read -/

theorem result_array (c : Dev nD) :
    Pipeline.withArrays spec0 c (V0 m c) (fun w => (dats m 0 c).arrAt w cfg0.N) (Proc.devRef .tc main_v5)
      = stacked (X m c) (Wt m c) (Bb m c) :=
  (Pipeline.withArrays_arr spec0 launch0.win.arr_inj c _ _ 3).trans (final m c)

theorem tail_occ (c : Dev nD) :
    Pipeline.afterTail₀ cfgs (dats m) 0 (V0 m) [hostOps1] c main_v7
      = shapeCast S4x252x252x4 (extractStridedSlice S254016x4 ![0, 0] (stacked (X m c) (Wt m c) (Bb m c)) Facts₀.slices_S254016x52_S254016x4_0_0) Facts₀.shapeCasts_S254016x4_S4x252x252x4 := by
  unfold Pipeline.afterTail₀
  show StableHlo.after hostOps1 _ (Proc.devRef .tc main_v7) = _
  after_results
  rw [result_array]
  rfl

theorem tail_loc (c : Dev nD) :
    Pipeline.afterTail₀ cfgs (dats m) 0 (V0 m) [hostOps1] c main_v9
      = shapeCast S4x252x252x4x3 (extractStridedSlice S254016x12 ![0, 4] (stacked (X m c) (Wt m c) (Bb m c)) Facts₀.slices_S254016x52_S254016x12_0_4) Facts₀.shapeCasts_S254016x12_S4x252x252x4x3 := by
  unfold Pipeline.afterTail₀
  show StableHlo.after hostOps1 _ (Proc.devRef .tc main_v9) = _
  after_results
  rw [result_array]
  rfl

theorem tail_angle (c : Dev nD) :
    Pipeline.afterTail₀ cfgs (dats m) 0 (V0 m) [hostOps1] c main_v11
      = shapeCast S4x252x252x4 (extractStridedSlice S254016x4 ![0, 16] (stacked (X m c) (Wt m c) (Bb m c)) Facts₀.slices_S254016x52_S254016x4_0_16) Facts₀.shapeCasts_S254016x4_S4x252x252x4 := by
  unfold Pipeline.afterTail₀
  show StableHlo.after hostOps1 _ (Proc.devRef .tc main_v11) = _
  after_results
  rw [result_array]
  rfl

theorem tail_size (c : Dev nD) :
    Pipeline.afterTail₀ cfgs (dats m) 0 (V0 m) [hostOps1] c main_v13
      = shapeCast S4x252x252x4x3 (extractStridedSlice S254016x12 ![0, 20] (stacked (X m c) (Wt m c) (Bb m c)) Facts₀.slices_S254016x52_S254016x12_0_20) Facts₀.shapeCasts_S254016x12_S4x252x252x4x3 := by
  unfold Pipeline.afterTail₀
  show StableHlo.after hostOps1 _ (Proc.devRef .tc main_v13) = _
  after_results
  rw [result_array]
  rfl

theorem tail_heading (c : Dev nD) :
    Pipeline.afterTail₀ cfgs (dats m) 0 (V0 m) [hostOps1] c main_v15
      = shapeCast S4x252x252x4 (extractStridedSlice S254016x4 ![0, 32] (stacked (X m c) (Wt m c) (Bb m c)) Facts₀.slices_S254016x52_S254016x4_0_32) Facts₀.shapeCasts_S254016x4_S4x252x252x4 := by
  unfold Pipeline.afterTail₀
  show StableHlo.after hostOps1 _ (Proc.devRef .tc main_v15) = _
  after_results
  rw [result_array]
  rfl

theorem tail_clf (c : Dev nD) :
    Pipeline.afterTail₀ cfgs (dats m) 0 (V0 m) [hostOps1] c main_v17
      = shapeCast S4x252x252x4x4 (extractStridedSlice S254016x16 ![0, 36] (stacked (X m c) (Wt m c) (Bb m c)) Facts₀.slices_S254016x52_S254016x16_0_36) Facts₀.shapeCasts_S254016x16_S4x252x252x4x4 := by
  unfold Pipeline.afterTail₀
  show StableHlo.after hostOps1 _ (Proc.devRef .tc main_v17) = _
  after_results
  rw [result_array]
  rfl

/-! ## The stacked head at a pixel's row and a head's column -/

/-- If column `q` of the stacked weights is row `o` of a head's weights, and entry `q` of the stacked bias is entry `o` of the
    head's bias, then the stacked head at pixel `(b, h, v)`'s row and column `q` is `act q` of that head's logit. -/
theorem stacked_at (c : Dev nD) (b : Fin 4) (h v : Fin 252) (q : Fin 52) {O : Nat} (w : FVec Ideal ⟨2, ![O, 384]⟩ .f32)
    (bias : FVec Ideal ⟨1, ![O]⟩ .f32) (o : Fin O) (hw : ∀ k : Fin 384, Wt m c (ix2 k q) = w (ix2 o k))
    (hb : Bb m c (ix2 (0 : Fin 1) q) = bias (ix1 o)) :
    stacked (X m c) (Wt m c) (Bb m c) (ix2 (pix b h v) q) = act q (logit (m ((c : Thread nD τ).loc main_arg0)) w bias b h v o) := by
  unfold logit
  show act q ((∑ k : Fin 384, X m c (ix2 (pix b h v) k) * Wt m c (ix2 k q)) + Bb m c (ix2 (0 : Fin 1) q)) = _
  rw [hb]
  refine congrArg (act q) (congrArg (· + bias (ix1 o)) (Finset.sum_congr rfl fun k _ => ?_))
  rw [hw k, X_eq, Operands.flat_at]

/-! ## The six results -/

/-- The kernel's `occ` result — columns [0, 4) of the stacked result, unflattened — is the reference's: entry by entry both
    are the head's logit under the logistic function. -/
theorem occ_eq (c : Dev nD) :
    Pipeline.afterTail₀ cfgs (dats m) 0 (V0 m) [hostOps1] c main_v7
      = Cert.ReferenceIdeal.Read.val_main_v9 (F := Ideal) (m ((c : Thread nD τ).loc main_arg0)) (m ((c : Thread nD τ).loc main_arg1)) (m ((c : Thread nD τ).loc main_arg2)) := by
  rw [tail_occ]
  funext i
  obtain ⟨b, h, v, a, rfl⟩ : ∃ (b : Fin 4) (h v : Fin 252) (a : Fin 4), i = ix4 b h v a := ⟨i 0, i 1, i 2, i 3, eq_ix4 i⟩
  have ha := a.isLt
  obtain ⟨o, ho⟩ : ∃ o : Fin 4, o.val = a.val := ⟨⟨a.val, by omega⟩, rfl⟩
  obtain ⟨q, hq⟩ : ∃ q : Fin 52, q.val = 0 + (a.val) := ⟨⟨0 + (a.val), by omega⟩, rfl⟩
  rw [Results.occ_at _ b h v a q (by rw [hq]; omega)]
  rw [stacked_at m c b h v q (m ((c : Thread nD τ).loc main_arg1)) (m ((c : Thread nD τ).loc main_arg2)) o
      (fun k => by rw [Wt_eq]; exact Operands.stackedT_0 (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg11)) k o q (by rw [hq, ho]; omega))
      (by rw [Bb_eq]; exact Operands.biasRow_0 (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) o q (by rw [hq, ho]; omega)),
    act_sigmoid (show q.val < 4 ∨ (32 ≤ q.val ∧ q.val < 36) by rw [hq]; omega)]
  obtain rfl : o = a := Fin.ext ho
  exact (Cert.ReferenceIdeal.Heads.occ_at (m ((c : Thread nD τ).loc main_arg0)) b h v (m ((c : Thread nD τ).loc main_arg1)) (m ((c : Thread nD τ).loc main_arg2)) o).symm

/-- The kernel's `loc` result — columns [4, 16) of the stacked result, unflattened — is the reference's: entry by entry both
    are the head's logit. -/
theorem loc_eq (c : Dev nD) :
    Pipeline.afterTail₀ cfgs (dats m) 0 (V0 m) [hostOps1] c main_v9
      = Cert.ReferenceIdeal.Read.val_main_v14 (F := Ideal) (m ((c : Thread nD τ).loc main_arg0)) (m ((c : Thread nD τ).loc main_arg3)) (m ((c : Thread nD τ).loc main_arg4)) := by
  rw [tail_loc]
  funext i
  obtain ⟨b, h, v, a, j, rfl⟩ : ∃ (b : Fin 4) (h v : Fin 252) (a : Fin 4) (j : Fin 3), i = ix5 b h v a j := ⟨i 0, i 1, i 2, i 3, i 4, eq_ix5 i⟩
  have ha := a.isLt
  have hj := j.isLt
  obtain ⟨o, ho⟩ : ∃ o : Fin 12, o.val = 3 * a.val + j.val := ⟨⟨3 * a.val + j.val, by omega⟩, rfl⟩
  obtain ⟨q, hq⟩ : ∃ q : Fin 52, q.val = 4 + (3 * a.val + j.val) := ⟨⟨4 + (3 * a.val + j.val), by omega⟩, rfl⟩
  rw [Results.loc_at _ b h v a j q (by rw [hq])]
  rw [stacked_at m c b h v q (m ((c : Thread nD τ).loc main_arg3)) (m ((c : Thread nD τ).loc main_arg4)) o
      (fun k => by rw [Wt_eq]; exact Operands.stackedT_1 (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg11)) k o q (by rw [hq, ho]))
      (by rw [Bb_eq]; exact Operands.biasRow_1 (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) o q (by rw [hq, ho])),
    act_plain (show ¬(q.val < 4 ∨ (32 ≤ q.val ∧ q.val < 36)) by rw [hq]; omega)]
  exact (Cert.ReferenceIdeal.Heads.loc_at (m ((c : Thread nD τ).loc main_arg0)) b h v (m ((c : Thread nD τ).loc main_arg3)) (m ((c : Thread nD τ).loc main_arg4)) a j o ho).symm

/-- The kernel's `angle` result — columns [16, 20) of the stacked result, unflattened — is the reference's: entry by entry both
    are the head's logit. -/
theorem angle_eq (c : Dev nD) :
    Pipeline.afterTail₀ cfgs (dats m) 0 (V0 m) [hostOps1] c main_v11
      = Cert.ReferenceIdeal.Read.val_main_v18 (F := Ideal) (m ((c : Thread nD τ).loc main_arg0)) (m ((c : Thread nD τ).loc main_arg5)) (m ((c : Thread nD τ).loc main_arg6)) := by
  rw [tail_angle]
  funext i
  obtain ⟨b, h, v, a, rfl⟩ : ∃ (b : Fin 4) (h v : Fin 252) (a : Fin 4), i = ix4 b h v a := ⟨i 0, i 1, i 2, i 3, eq_ix4 i⟩
  have ha := a.isLt
  obtain ⟨o, ho⟩ : ∃ o : Fin 4, o.val = a.val := ⟨⟨a.val, by omega⟩, rfl⟩
  obtain ⟨q, hq⟩ : ∃ q : Fin 52, q.val = 16 + (a.val) := ⟨⟨16 + (a.val), by omega⟩, rfl⟩
  rw [Results.angle_at _ b h v a q (by rw [hq])]
  rw [stacked_at m c b h v q (m ((c : Thread nD τ).loc main_arg5)) (m ((c : Thread nD τ).loc main_arg6)) o
      (fun k => by rw [Wt_eq]; exact Operands.stackedT_2 (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg11)) k o q (by rw [hq, ho]))
      (by rw [Bb_eq]; exact Operands.biasRow_2 (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) o q (by rw [hq, ho])),
    act_plain (show ¬(q.val < 4 ∨ (32 ≤ q.val ∧ q.val < 36)) by rw [hq]; omega)]
  obtain rfl : o = a := Fin.ext ho
  exact (Cert.ReferenceIdeal.Heads.angle_at (m ((c : Thread nD τ).loc main_arg0)) b h v (m ((c : Thread nD τ).loc main_arg5)) (m ((c : Thread nD τ).loc main_arg6)) o).symm

/-- The kernel's `size` result — columns [20, 32) of the stacked result, unflattened — is the reference's: entry by entry both
    are the head's logit. -/
theorem size_eq (c : Dev nD) :
    Pipeline.afterTail₀ cfgs (dats m) 0 (V0 m) [hostOps1] c main_v13
      = Cert.ReferenceIdeal.Read.val_main_v23 (F := Ideal) (m ((c : Thread nD τ).loc main_arg0)) (m ((c : Thread nD τ).loc main_arg7)) (m ((c : Thread nD τ).loc main_arg8)) := by
  rw [tail_size]
  funext i
  obtain ⟨b, h, v, a, j, rfl⟩ : ∃ (b : Fin 4) (h v : Fin 252) (a : Fin 4) (j : Fin 3), i = ix5 b h v a j := ⟨i 0, i 1, i 2, i 3, i 4, eq_ix5 i⟩
  have ha := a.isLt
  have hj := j.isLt
  obtain ⟨o, ho⟩ : ∃ o : Fin 12, o.val = 3 * a.val + j.val := ⟨⟨3 * a.val + j.val, by omega⟩, rfl⟩
  obtain ⟨q, hq⟩ : ∃ q : Fin 52, q.val = 20 + (3 * a.val + j.val) := ⟨⟨20 + (3 * a.val + j.val), by omega⟩, rfl⟩
  rw [Results.size_at _ b h v a j q (by rw [hq])]
  rw [stacked_at m c b h v q (m ((c : Thread nD τ).loc main_arg7)) (m ((c : Thread nD τ).loc main_arg8)) o
      (fun k => by rw [Wt_eq]; exact Operands.stackedT_3 (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg11)) k o q (by rw [hq, ho]))
      (by rw [Bb_eq]; exact Operands.biasRow_3 (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) o q (by rw [hq, ho])),
    act_plain (show ¬(q.val < 4 ∨ (32 ≤ q.val ∧ q.val < 36)) by rw [hq]; omega)]
  exact (Cert.ReferenceIdeal.Heads.size_at (m ((c : Thread nD τ).loc main_arg0)) b h v (m ((c : Thread nD τ).loc main_arg7)) (m ((c : Thread nD τ).loc main_arg8)) a j o ho).symm

/-- The kernel's `heading` result — columns [32, 36) of the stacked result, unflattened — is the reference's: entry by entry both
    are the head's logit under the logistic function. -/
theorem heading_eq (c : Dev nD) :
    Pipeline.afterTail₀ cfgs (dats m) 0 (V0 m) [hostOps1] c main_v15
      = Cert.ReferenceIdeal.Read.val_main_v33 (F := Ideal) (m ((c : Thread nD τ).loc main_arg0)) (m ((c : Thread nD τ).loc main_arg9)) (m ((c : Thread nD τ).loc main_arg10)) := by
  rw [tail_heading]
  funext i
  obtain ⟨b, h, v, a, rfl⟩ : ∃ (b : Fin 4) (h v : Fin 252) (a : Fin 4), i = ix4 b h v a := ⟨i 0, i 1, i 2, i 3, eq_ix4 i⟩
  have ha := a.isLt
  obtain ⟨o, ho⟩ : ∃ o : Fin 4, o.val = a.val := ⟨⟨a.val, by omega⟩, rfl⟩
  obtain ⟨q, hq⟩ : ∃ q : Fin 52, q.val = 32 + (a.val) := ⟨⟨32 + (a.val), by omega⟩, rfl⟩
  rw [Results.heading_at _ b h v a q (by rw [hq])]
  rw [stacked_at m c b h v q (m ((c : Thread nD τ).loc main_arg9)) (m ((c : Thread nD τ).loc main_arg10)) o
      (fun k => by rw [Wt_eq]; exact Operands.stackedT_4 (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg11)) k o q (by rw [hq, ho]))
      (by rw [Bb_eq]; exact Operands.biasRow_4 (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) o q (by rw [hq, ho])),
    act_sigmoid (show q.val < 4 ∨ (32 ≤ q.val ∧ q.val < 36) by rw [hq]; omega)]
  obtain rfl : o = a := Fin.ext ho
  exact (Cert.ReferenceIdeal.Heads.heading_at (m ((c : Thread nD τ).loc main_arg0)) b h v (m ((c : Thread nD τ).loc main_arg9)) (m ((c : Thread nD τ).loc main_arg10)) o).symm

/-- The kernel's `clf` result — columns [36, 52) of the stacked result, unflattened — is the reference's: entry by entry both
    are the head's logit. -/
theorem clf_eq (c : Dev nD) :
    Pipeline.afterTail₀ cfgs (dats m) 0 (V0 m) [hostOps1] c main_v17
      = Cert.ReferenceIdeal.Read.val_main_v38 (F := Ideal) (m ((c : Thread nD τ).loc main_arg0)) (m ((c : Thread nD τ).loc main_arg11)) (m ((c : Thread nD τ).loc main_arg12)) := by
  rw [tail_clf]
  funext i
  obtain ⟨b, h, v, a, j, rfl⟩ : ∃ (b : Fin 4) (h v : Fin 252) (a : Fin 4) (j : Fin 4), i = ix5 b h v a j := ⟨i 0, i 1, i 2, i 3, i 4, eq_ix5 i⟩
  have ha := a.isLt
  have hj := j.isLt
  obtain ⟨o, ho⟩ : ∃ o : Fin 16, o.val = 4 * a.val + j.val := ⟨⟨4 * a.val + j.val, by omega⟩, rfl⟩
  obtain ⟨q, hq⟩ : ∃ q : Fin 52, q.val = 36 + (4 * a.val + j.val) := ⟨⟨36 + (4 * a.val + j.val), by omega⟩, rfl⟩
  rw [Results.clf_at _ b h v a j q (by rw [hq])]
  rw [stacked_at m c b h v q (m ((c : Thread nD τ).loc main_arg11)) (m ((c : Thread nD τ).loc main_arg12)) o
      (fun k => by rw [Wt_eq]; exact Operands.stackedT_5 (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg11)) k o q (by rw [hq, ho]))
      (by rw [Bb_eq]; exact Operands.biasRow_5 (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) o q (by rw [hq, ho])),
    act_plain (show ¬(q.val < 4 ∨ (32 ≤ q.val ∧ q.val < 36)) by rw [hq]; omega)]
  exact (Cert.ReferenceIdeal.Heads.clf_at (m ((c : Thread nD τ).loc main_arg0)) b h v (m ((c : Thread nD τ).loc main_arg11)) (m ((c : Thread nD τ).loc main_arg12)) a j o ho).symm

end Cert.KernelIdeal.Bridge

end
-- ==== Proof.lean ====
/-
  Six detection heads over one feature map, computed two ways, are the same six arrays.

  The kernel stacks the six heads' weights into one 52-channel head, flattens the 4 x 252 x 252 pixels into 254016 rows,
  runs ONE pallas_call over 49 row tiles — per tile: the tile against the stacked weights, plus the stacked bias, the
  logistic function on channels 0..3 and 32..35 — and slices the 254016 x 52 result back into the six heads. The
  reference computes each head by itself with one contraction, one broadcast bias and, for the first and the fifth
  head, `1 / (1 + exp (-z))`. Over the extended reals a change of float format is the identity, the matrix unit's
  product is the plain sum over the 384 features, and the logistic function IS `1 / (1 + exp (-z))`; so entry by entry
  both sides are the head's logit `(∑ k, x[b, h, v, k] * w[o, k]) + bias[o]`, under the logistic function for the first
  and the fifth head (Proof/Heads.lean states it; Proof/Bridge.lean joins the two sides). No law of arithmetic beyond
  reading the same sum at the same index is used, so the precondition is never opened.

  The three frames: the two kernel programs run through the pipeline's launch with the body's triple at every grid
  point (Proof/BitsRegion.lean, Proof/IdealRegion.lean: one text, in the two programs' namespaces); the reference is a
  straight line of host operations, whose run leaves every argument in place. The idealization rewrote nothing, so
  there is nothing to preserve.
-/
import proofs.«401457_j52802327937436_3_alg».proof.Defs
import proofs.«401457_j52802327937436_3_alg».proof.Proof.Gen.Kernel
import proofs.«401457_j52802327937436_3_alg».proof.Proof.Gen.KernelIdeal
import proofs.«401457_j52802327937436_3_alg».proof.Proof.Gen.ReferenceIdeal
import proofs.«401457_j52802327937436_3_alg».proof.Proof.Gen.Pre_finite_inputs
import proofs.«401457_j52802327937436_3_alg».proof.Proof.Gen.ReferenceIdeal.Run
import proofs.«401457_j52802327937436_3_alg».proof.Proof.BitsRegion
import proofs.«401457_j52802327937436_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Region.frame m ρ

/-- So does its idealization. -/
theorem frame_kernelIdeal : Cert.frame_KernelIdeal := fun m ρ _ => Cert.KernelIdeal.Region.frame m ρ

/-- The reference is host operations only: its run, with the six results dropped. -/
theorem frame_referenceIdeal : Cert.frame_ReferenceIdeal := fun m ρ _ =>
  (θ_run Cert.ReferenceIdeal.defs _ _).mono (fun _ h c => (h c).2.2.2.2.2.2) (Cert.ReferenceIdeal.Value.run (F := Ideal) m ρ)

/-- The idealization rewrote no operation. -/
theorem preserves : Cert.preserves_Kernel_KernelIdeal := trivial

/-- From memories that agree on the thirteen arguments both programs run to the end with equal results: the kernel's
    six result buffers hold what the host lines after the pallas_call cut out of the stacked head, the reference's hold
    its six stages, and each pair is one function of the arguments. -/
theorem algebraic : Cert.algebraic_KernelIdeal_ReferenceIdeal := by
  intro m ρ m' ρ' _ hagree
  refine ⟨fun c => Pipeline.afterTail₀ Cert.KernelIdeal.cfgs (Cert.KernelIdeal.Region.dats m) 0 (Cert.KernelIdeal.Region.V0 m) [Cert.KernelIdeal.Gen.hostOps1] c Cert.KernelIdeal.main_v7,
    fun c => Pipeline.afterTail₀ Cert.KernelIdeal.cfgs (Cert.KernelIdeal.Region.dats m) 0 (Cert.KernelIdeal.Region.V0 m) [Cert.KernelIdeal.Gen.hostOps1] c Cert.KernelIdeal.main_v9,
    fun c => Pipeline.afterTail₀ Cert.KernelIdeal.cfgs (Cert.KernelIdeal.Region.dats m) 0 (Cert.KernelIdeal.Region.V0 m) [Cert.KernelIdeal.Gen.hostOps1] c Cert.KernelIdeal.main_v11,
    fun c => Pipeline.afterTail₀ Cert.KernelIdeal.cfgs (Cert.KernelIdeal.Region.dats m) 0 (Cert.KernelIdeal.Region.V0 m) [Cert.KernelIdeal.Gen.hostOps1] c Cert.KernelIdeal.main_v13,
    fun c => Pipeline.afterTail₀ Cert.KernelIdeal.cfgs (Cert.KernelIdeal.Region.dats m) 0 (Cert.KernelIdeal.Region.V0 m) [Cert.KernelIdeal.Gen.hostOps1] c Cert.KernelIdeal.main_v15,
    fun c => Pipeline.afterTail₀ Cert.KernelIdeal.cfgs (Cert.KernelIdeal.Region.dats m) 0 (Cert.KernelIdeal.Region.V0 m) [Cert.KernelIdeal.Gen.hostOps1] c Cert.KernelIdeal.main_v17, ?_, ?_⟩
  · exact (θ_run Cert.KernelIdeal.defs _ _).mono (fun _ h c => ⟨(h c).2 Cert.KernelIdeal.main_v7 (Pipeline.mem_restRefs_of Cert.KernelIdeal.main_v7 (by decide) (by decide)),
      (h c).2 Cert.KernelIdeal.main_v9 (Pipeline.mem_restRefs_of Cert.KernelIdeal.main_v9 (by decide) (by decide)),
      (h c).2 Cert.KernelIdeal.main_v11 (Pipeline.mem_restRefs_of Cert.KernelIdeal.main_v11 (by decide) (by decide)),
      (h c).2 Cert.KernelIdeal.main_v13 (Pipeline.mem_restRefs_of Cert.KernelIdeal.main_v13 (by decide) (by decide)),
      (h c).2 Cert.KernelIdeal.main_v15 (Pipeline.mem_restRefs_of Cert.KernelIdeal.main_v15 (by decide) (by decide)),
      (h c).2 Cert.KernelIdeal.main_v17 (Pipeline.mem_restRefs_of Cert.KernelIdeal.main_v17 (by decide) (by decide)),
      ((h c).2 Cert.KernelIdeal.main_arg0 (Pipeline.mem_restRefs_of Cert.KernelIdeal.main_arg0 (by decide) (by decide))).trans (Cert.KernelIdeal.Region.W_main_arg0 m (Cert.KernelIdeal.Region.dats m) c),
      ((h c).2 Cert.KernelIdeal.main_arg1 (Pipeline.mem_restRefs_of Cert.KernelIdeal.main_arg1 (by decide) (by decide))).trans (Cert.KernelIdeal.Region.W_main_arg1 m (Cert.KernelIdeal.Region.dats m) c),
      ((h c).2 Cert.KernelIdeal.main_arg2 (Pipeline.mem_restRefs_of Cert.KernelIdeal.main_arg2 (by decide) (by decide))).trans (Cert.KernelIdeal.Region.W_main_arg2 m (Cert.KernelIdeal.Region.dats m) c),
      ((h c).2 Cert.KernelIdeal.main_arg3 (Pipeline.mem_restRefs_of Cert.KernelIdeal.main_arg3 (by decide) (by decide))).trans (Cert.KernelIdeal.Region.W_main_arg3 m (Cert.KernelIdeal.Region.dats m) c),
      ((h c).2 Cert.KernelIdeal.main_arg4 (Pipeline.mem_restRefs_of Cert.KernelIdeal.main_arg4 (by decide) (by decide))).trans (Cert.KernelIdeal.Region.W_main_arg4 m (Cert.KernelIdeal.Region.dats m) c),
      ((h c).2 Cert.KernelIdeal.main_arg5 (Pipeline.mem_restRefs_of Cert.KernelIdeal.main_arg5 (by decide) (by decide))).trans (Cert.KernelIdeal.Region.W_main_arg5 m (Cert.KernelIdeal.Region.dats m) c),
      ((h c).2 Cert.KernelIdeal.main_arg6 (Pipeline.mem_restRefs_of Cert.KernelIdeal.main_arg6 (by decide) (by decide))).trans (Cert.KernelIdeal.Region.W_main_arg6 m (Cert.KernelIdeal.Region.dats m) c),
      ((h c).2 Cert.KernelIdeal.main_arg7 (Pipeline.mem_restRefs_of Cert.KernelIdeal.main_arg7 (by decide) (by decide))).trans (Cert.KernelIdeal.Region.W_main_arg7 m (Cert.KernelIdeal.Region.dats m) c),
      ((h c).2 Cert.KernelIdeal.main_arg8 (Pipeline.mem_restRefs_of Cert.KernelIdeal.main_arg8 (by decide) (by decide))).trans (Cert.KernelIdeal.Region.W_main_arg8 m (Cert.KernelIdeal.Region.dats m) c),
      ((h c).2 Cert.KernelIdeal.main_arg9 (Pipeline.mem_restRefs_of Cert.KernelIdeal.main_arg9 (by decide) (by decide))).trans (Cert.KernelIdeal.Region.W_main_arg9 m (Cert.KernelIdeal.Region.dats m) c),
      ((h c).2 Cert.KernelIdeal.main_arg10 (Pipeline.mem_restRefs_of Cert.KernelIdeal.main_arg10 (by decide) (by decide))).trans (Cert.KernelIdeal.Region.W_main_arg10 m (Cert.KernelIdeal.Region.dats m) c),
      ((h c).2 Cert.KernelIdeal.main_arg11 (Pipeline.mem_restRefs_of Cert.KernelIdeal.main_arg11 (by decide) (by decide))).trans (Cert.KernelIdeal.Region.W_main_arg11 m (Cert.KernelIdeal.Region.dats m) c),
      ((h c).2 Cert.KernelIdeal.main_arg12 (Pipeline.mem_restRefs_of Cert.KernelIdeal.main_arg12 (by decide) (by decide))).trans (Cert.KernelIdeal.Region.W_main_arg12 m (Cert.KernelIdeal.Region.dats m) c)⟩)
      (Cert.KernelIdeal.Region.run_main (F := Ideal) m ρ)
  · refine (θ_run Cert.ReferenceIdeal.defs _ _).mono (fun _ h c => ?_) (Cert.ReferenceIdeal.Value.run (F := Ideal) m' ρ')
    obtain ⟨a0, a1, a2, a3, a4, a5, a6, a7, a8, a9, a10, a11, a12⟩ := hagree c
    obtain ⟨r0, r1, r2, r3, r4, r5, hkept⟩ := h c
    refine ⟨r0.trans ?_, r1.trans ?_, r2.trans ?_, r3.trans ?_, r4.trans ?_, r5.trans ?_, hkept⟩
    · rw [a0, a1, a2]; exact (Cert.KernelIdeal.Bridge.occ_eq m c).symm
    · rw [a0, a3, a4]; exact (Cert.KernelIdeal.Bridge.loc_eq m c).symm
    · rw [a0, a5, a6]; exact (Cert.KernelIdeal.Bridge.angle_eq m c).symm
    · rw [a0, a7, a8]; exact (Cert.KernelIdeal.Bridge.size_eq m c).symm
    · rw [a0, a9, a10]; exact (Cert.KernelIdeal.Bridge.heading_eq m c).symm
    · rw [a0, a11, a12]; exact (Cert.KernelIdeal.Bridge.clf_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
